-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x16 : Shape := ⟨3, ![64, 1024, 16]⟩
abbrev S32x1 : Shape := ⟨2, ![32, 1]⟩
abbrev S16x8x1 : Shape := ⟨3, ![16, 8, 1]⟩
abbrev S16x1x32 : Shape := ⟨3, ![16, 1, 32]⟩
abbrev S128 : Shape := ⟨1, ![128]⟩
abbrev S256x256 : Shape := ⟨2, ![256, 256]⟩
abbrev S128x256 : Shape := ⟨2, ![128, 256]⟩
abbrev S_ : Shape := ⟨0, ![]⟩

class Facts : Prop where
  bcast_S_S64x1024x16 : S_.BroadcastsInDim S64x1024x16 (![] : Fin 0 → Fin S64x1024x16.rank)
  reducesTo_S64x1024x16_S_d0_1_2 : S64x1024x16.ReducesTo [0, 1, 2] S_
  h_S_ : 0 < S_.numel
  bcast_S_S32x1 : S_.BroadcastsInDim S32x1 (![] : Fin 0 → Fin S32x1.rank)
  reducesTo_S32x1_S_d0_1 : S32x1.ReducesTo [0, 1] S_
  bcast_S_S16x8x1 : S_.BroadcastsInDim S16x8x1 (![] : Fin 0 → Fin S16x8x1.rank)
  reducesTo_S16x8x1_S_d0_1_2 : S16x8x1.ReducesTo [0, 1, 2] S_
  bcast_S_S16x1x32 : S_.BroadcastsInDim S16x1x32 (![] : Fin 0 → Fin S16x1x32.rank)
  reducesTo_S16x1x32_S_d0_1_2 : S16x1x32.ReducesTo [0, 1, 2] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_

variable [Facts]

def fn_part3 {F : FTy → Type} [FloatOps F] (main_arg11 : FVec F S128x256 .f32) (main_arg12 : FVec F S128 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S128x256 .f32 := Host.absf main_arg11
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S16x8x1 .f32) (main_arg8 : FVec F S16x1x32 .f32) (main_arg9 : FVec F S128 .f32) (main_arg10 : FVec F S256x256 .f32) (main_arg11 : FVec F S128x256 .f32) (main_arg12 : FVec F S128 .f32) (main_v33 : IVec S_ 1) : IVec S_ 1 :=
  let main_v34 : FVec F S16x8x1 .f32 := Host.absf main_arg7
  let main_cst_12 : FVec F S_ .f32 := constant S_ .f32 0x7F800000#32
  let main_v35 : FVec F S16x8x1 .f32 := broadcastInDim S16x8x1 ![] bcast_S_S16x8x1 main_cst_12
  let main_v36 : IVec S16x8x1 1 := cmpf .olt main_v34 main_v35
  let main_c_13 : IVec S_ 1 := constantI S_ 1 1#1
  let main_v37 : IVec S_ 1 := (fun x v => Host.reduce IntOp.andi x v reducesTo_S16x8x1_S_d0_1_2 h_S_) main_v36 main_c_13
  let main_v38 : IVec S_ 1 := andi main_v33 main_v37
  let main_v39 : FVec F S16x1x32 .f32 := Host.absf main_arg8
  let main_cst_14 : FVec F S_ .f32 := constant S_ .f32 0x7F800000#32
  let main_v40 : FVec F S16x1x32 .f32 := broadcastInDim S16x1x32 ![] bcast_S_S16x1x32 main_cst_14
  let main_v41 : IVec S16x1x32 1 := cmpf .olt main_v39 main_v40
  let main_c_15 : IVec S_ 1 := constantI S_ 1 1#1
  let main_v42 : IVec S_ 1 := (fun x v => Host.reduce IntOp.andi x v reducesTo_S16x1x32_S_d0_1_2 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_v48 main_v49 main_v50

def fn_part1 {F : FTy → Type} [FloatOps F] (main_arg4 : FVec F S16x1x32 .f32) (main_arg5 : FVec F S128 .f32) (main_arg6 : FVec F S32x1 .f32) (main_arg7 : FVec F S16x8x1 .f32) (main_arg8 : FVec F S16x1x32 .f32) (main_arg9 : FVec F S128 .f32) (main_arg10 : FVec F S256x256 .f32) (main_arg11 : FVec F S128x256 .f32) (main_arg12 : FVec F S128 .f32) (main_v13 : IVec S_ 1) (main_v16 : IVec S16x8x1 1) : IVec S_ 1 :=
  let main_c_5 : IVec S_ 1 := constantI S_ 1 1#1
  let main_v17 : IVec S_ 1 := (fun x v => Host.reduce IntOp.andi x v reducesTo_S16x8x1_S_d0_1_2 h_S_) main_v16 main_c_5
  let main_v18 : IVec S_ 1 := andi main_v13 main_v17
  let main_v19 : FVec F S16x1x32 .f32 := Host.absf main_arg4
  let main_cst_6 : FVec F S_ .f32 := constant S_ .f32 0x7F800000#32
  let main_v20 : FVec F S16x1x32 .f32 := broadcastInDim S16x1x32 ![] bcast_S_S16x1x32 main_cst_6
  let main_v21 : IVec S16x1x32 1 := cmpf .olt main_v19 main_v20
  let main_c_7 : IVec S_ 1 := constantI S_ 1 1#1
  let main_v22 : IVec S_ 1 := (fun x v => Host.reduce IntOp.andi x v reducesTo_S16x1x32_S_d0_1_2 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S32x1 .f32 := Host.absf main_arg6
  let main_cst_10 : FVec F S_ .f32 := constant S_ .f32 0x7F800000#32
  let main_v30 : FVec F S32x1 .f32 := broadcastInDim S32x1 ![] bcast_S_S32x1 main_cst_10
  let main_v31 : IVec S32x1 1 := cmpf .olt main_v29 main_v30
  let main_c_11 : IVec S_ 1 := constantI S_ 1 1#1
  let main_v32 : IVec S_ 1 := (fun x v => Host.reduce IntOp.andi x v reducesTo_S32x1_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S64x1024x16 .f32) (main_arg1 : FVec F S64x1024x16 .f32) (main_arg2 : FVec F S32x1 .f32) (main_arg3 : FVec F S16x8x1 .f32) (main_arg4 : FVec F S16x1x32 .f32) (main_arg5 : FVec F S128 .f32) (main_arg6 : FVec F S32x1 .f32) (main_arg7 : FVec F S16x8x1 .f32) (main_arg8 : FVec F S16x1x32 .f32) (main_arg9 : FVec F S128 .f32) (main_arg10 : FVec F S256x256 .f32) (main_arg11 : FVec F S128x256 .f32) (main_arg12 : FVec F S128 .f32) : IVec S_ 1 :=
  let main_v0 : FVec F S64x1024x16 .f32 := Host.absf main_arg0
  let main_cst : FVec F S_ .f32 := constant S_ .f32 0x7F800000#32
  let main_v1 : FVec F S64x1024x16 .f32 := broadcastInDim S64x1024x16 ![] bcast_S_S64x1024x16 main_cst
  let main_v2 : IVec S64x1024x16 1 := cmpf .olt main_v0 main_v1
  let main_c : IVec S_ 1 := constantI S_ 1 1#1
  let main_v3 : IVec S_ 1 := (fun x v => Host.reduce IntOp.andi x v reducesTo_S64x1024x16_S_d0_1_2 h_S_) main_v2 main_c
  let main_v4 : FVec F S64x1024x16 .f32 := Host.absf main_arg1
  let main_cst_0 : FVec F S_ .f32 := constant S_ .f32 0x7F800000#32
  let main_v5 : FVec F S64x1024x16 .f32 := broadcastInDim S64x1024x16 ![] bcast_S_S64x1024x16 main_cst_0
  let main_v6 : IVec S64x1024x16 1 := cmpf .olt main_v4 main_v5
  let main_c_1 : IVec S_ 1 := constantI S_ 1 1#1
  let main_v7 : IVec S_ 1 := (fun x v => Host.reduce IntOp.andi x v reducesTo_S64x1024x16_S_d0_1_2 h_S_) main_v6 main_c_1
  let main_v8 : IVec S_ 1 := andi main_v3 main_v7
  let main_v9 : FVec F S32x1 .f32 := Host.absf main_arg2
  let main_cst_2 : FVec F S_ .f32 := constant S_ .f32 0x7F800000#32
  let main_v10 : FVec F S32x1 .f32 := broadcastInDim S32x1 ![] bcast_S_S32x1 main_cst_2
  let main_v11 : IVec S32x1 1 := cmpf .olt main_v9 main_v10
  let main_c_3 : IVec S_ 1 := constantI S_ 1 1#1
  let main_v12 : IVec S_ 1 := (fun x v => Host.reduce IntOp.andi x v reducesTo_S32x1_S_d0_1 h_S_) main_v11 main_c_3
  let main_v13 : IVec S_ 1 := andi main_v8 main_v12
  let main_v14 : FVec F S16x8x1 .f32 := Host.absf main_arg3
  let main_cst_4 : FVec F S_ .f32 := constant S_ .f32 0x7F800000#32
  let main_v15 : FVec F S16x8x1 .f32 := broadcastInDim S16x8x1 ![] bcast_S_S16x8x1 main_cst_4
  let main_v16 : IVec S16x8x1 1 := cmpf .olt main_v14 main_v15
  fn_part1 (F := F) main_arg4 main_arg5 main_arg6 main_arg7 main_arg8 main_arg9 main_arg10 main_arg11 main_arg12 main_v13 main_v16
-- ==== Kernel.lean ====
abbrev S64x1024x16 : Shape := ⟨3, ![64, 1024, 16]⟩
abbrev S32x1 : Shape := ⟨2, ![32, 1]⟩
abbrev S16x8x1 : Shape := ⟨3, ![16, 8, 1]⟩
abbrev S16x1x32 : Shape := ⟨3, ![16, 1, 32]⟩
abbrev S128 : Shape := ⟨1, ![128]⟩
abbrev S256x256 : Shape := ⟨2, ![256, 256]⟩
abbrev S128x256 : Shape := ⟨2, ![128, 256]⟩
abbrev S16x8x32 : Shape := ⟨3, ![16, 8, 32]⟩
abbrev S128x32 : Shape := ⟨2, ![128, 32]⟩
abbrev S128x1 : Shape := ⟨2, ![128, 1]⟩
abbrev S64x128 : Shape := ⟨2, ![64, 128]⟩
abbrev S32x256x16 : Shape := ⟨3, ![32, 256, 16]⟩
abbrev S32x128 : Shape := ⟨2, ![32, 128]⟩
abbrev S32x256x1 : Shape := ⟨3, ![32, 256, 1]⟩
abbrev S32x256 : Shape := ⟨2, ![32, 256]⟩
abbrev S1x1x128 : Shape := ⟨3, ![1, 1, 128]⟩
abbrev S32x256x128 : Shape := ⟨3, ![32, 256, 128]⟩
abbrev S64x256 : Shape := ⟨2, ![64, 256]⟩
abbrev S_ : Shape := ⟨0, ![]⟩
abbrev S256x128 : Shape := ⟨2, ![256, 128]⟩
abbrev S1x128 : Shape := ⟨2, ![1, 128]⟩

abbrev nBuf : Space → Nat
  | .hbm => 39
  | .vmem => 12
  | .smem => 0
  | _ => 0

abbrev bufTy : (tb : Table) → Fin (tcTables nBuf tb) → BufTy
  | .hbm, ⟨0, _⟩ => ⟨S64x1024x16, .f32⟩
  | .hbm, ⟨1, _⟩ => ⟨S64x1024x16, .f32⟩
  | .hbm, ⟨2, _⟩ => ⟨S32x1, .f32⟩
  | .hbm, ⟨3, _⟩ => ⟨S16x8x1, .f32⟩
  | .hbm, ⟨4, _⟩ => ⟨S16x1x32, .f32⟩
  | .hbm, ⟨5, _⟩ => ⟨S128, .f32⟩
  | .hbm, ⟨6, _⟩ => ⟨S32x1, .f32⟩
  | .hbm, ⟨7, _⟩ => ⟨S16x8x1, .f32⟩
  | .hbm, ⟨8, _⟩ => ⟨S16x1x32, .f32⟩
  | .hbm, ⟨9, _⟩ => ⟨S128, .f32⟩
  | .hbm, ⟨10, _⟩ => ⟨S256x256, .f32⟩
  | .hbm, ⟨11, _⟩ => ⟨S128x256, .f32⟩
  | .hbm, ⟨12, _⟩ => ⟨S128, .f32⟩
  | .hbm, ⟨13, _⟩ => ⟨S16x8x32, .f32⟩
  | .hbm, ⟨14, _⟩ => ⟨S128x32, .f32⟩
  | .hbm, ⟨15, _⟩ => ⟨S128x1, .f32⟩
  | .hbm, ⟨16, _⟩ => ⟨S128, .f32⟩
  | .hbm, ⟨17, _⟩ => ⟨S16x8x32, .f32⟩
  | .hbm, ⟨18, _⟩ => ⟨S128x32, .f32⟩
  | .hbm, ⟨19, _⟩ => ⟨S128x1, .f32⟩
  | .hbm, ⟨20, _⟩ => ⟨S128, .f32⟩
  | .hbm, ⟨21, _⟩ => ⟨S64x128, .f32⟩
  | .hbm, ⟨22, _⟩ => ⟨S64x128, .f32⟩
  | .hbm, ⟨23, _⟩ => ⟨S64x256, .f32⟩
  | .hbm, ⟨24, _⟩ => ⟨S256x256, .f32⟩
  | .hbm, ⟨25, _⟩ => ⟨S64x256, .f32⟩
  | .hbm, ⟨26, _⟩ => ⟨S64x256, .f32⟩
  | .hbm, ⟨27, _⟩ => ⟨S64x256, .f32⟩
  | .hbm, ⟨28, _⟩ => ⟨S_, .f32⟩
  | .hbm, ⟨29, _⟩ => ⟨S64x256, .f32⟩
  | .hbm, ⟨30, _⟩ => ⟨S64x256, .f32⟩
  | .hbm, ⟨31, _⟩ => ⟨S_, .f32⟩
  | .hbm, ⟨32, _⟩ => ⟨S64x256, .f32⟩
  | .hbm, ⟨33, _⟩ => ⟨S64x256, .f32⟩
  | .hbm, ⟨34, _⟩ => ⟨S256x128, .f32⟩
  | .hbm, ⟨35, _⟩ => ⟨S64x128, .f32⟩
  | .hbm, ⟨36, _⟩ => ⟨S1x128, .f32⟩
  | .hbm, ⟨37, _⟩ => ⟨S64x128, .f32⟩
  | .hbm, ⟨38, _⟩ => ⟨S64x128, .f32⟩
  | .local _ .vmem, ⟨0, _⟩ => ⟨S32x256x16, .f32⟩
  | .local _ .vmem, ⟨1, _⟩ => ⟨S32x256x16, .f32⟩
  | .local _ .vmem, ⟨2, _⟩ => ⟨S128, .f32⟩
  | .local _ .vmem, ⟨3, _⟩ => ⟨S128, .f32⟩
  | .local _ .vmem, ⟨4, _⟩ => ⟨S32x128, .f32⟩
  | .local _ .vmem, ⟨5, _⟩ => ⟨S32x128, .f32⟩
  | .local _ .vmem, ⟨6, _⟩ => ⟨S32x256x16, .f32⟩
  | .local _ .vmem, ⟨7, _⟩ => ⟨S32x256x16, .f32⟩
  | .local _ .vmem, ⟨8, _⟩ => ⟨S128, .f32⟩
  | .local _ .vmem, ⟨9, _⟩ => ⟨S128, .f32⟩
  | .local _ .vmem, ⟨10, _⟩ => ⟨S32x128, .f32⟩
  | .local _ .vmem, ⟨11, _⟩ => ⟨S32x128, .f32⟩
  | _, _ => ⟨S64x1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S32x256x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S32x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S16x8x32_S128x32 : S16x8x32.ShapeCasts S128x32
  shapeCasts_S128x1_S128 : S128x1.ShapeCasts S128
  inb_S32x128_S32x128_0_0 : ∀ a, (![0, 0] : Fin 2 → Nat) a + S32x128.size a ≤ S32x128.size a
  h_S32x128 : 0 < S32x128.numel
  inb_S32x256x16_S32x256x16_0_0_0 : ∀ a, (![0, 0, 0] : Fin 3 → Nat) a + S32x256x16.size a ≤ S32x256x16.size a
  h_S32x256x16 : 0 < S32x256x16.numel
  inb_S128_S128_0 : ∀ a, (![0] : Fin 1 → Nat) a + S128.size a ≤ S128.size a
  h_S128 : 0 < S128.numel
  shapeCasts_S128_S128 : S128.ShapeCasts S128
  slices_S32x256x16_o0_0_0_S32x256x1 : S32x256x16.Slices ![0, 0, 0] S32x256x1
  shapeCasts_S32x256x1_S32x256 : S32x256x1.ShapeCasts S32x256
  shapeCasts_S32x256_S32x256x1 : S32x256.ShapeCasts S32x256x1
  shapeCasts_S128_S1x1x128 : S128.ShapeCasts S1x1x128
  broadcasts_S32x256x1_S32x256x128 : S32x256x1.Broadcasts S32x256x128
  broadcasts_S1x1x128_S32x256x128 : S1x1x128.Broadcasts S32x256x128
  slices_S32x256x16_o0_0_1_S32x256x1 : S32x256x16.Slices ![0, 0, 1] S32x256x1
  slices_S32x256x16_o0_0_2_S32x256x1 : S32x256x16.Slices ![0, 0, 2] S32x256x1
  slices_S32x256x16_o0_0_3_S32x256x1 : S32x256x16.Slices ![0, 0, 3] S32x256x1
  slices_S32x256x16_o0_0_4_S32x256x1 : S32x256x16.Slices ![0, 0, 4] S32x256x1
  slices_S32x256x16_o0_0_5_S32x256x1 : S32x256x16.Slices ![0, 0, 5] S32x256x1
  slices_S32x256x16_o0_0_6_S32x256x1 : S32x256x16.Slices ![0, 0, 6] S32x256x1
  slices_S32x256x16_o0_0_7_S32x256x1 : S32x256x16.Slices ![0, 0, 7] S32x256x1
  slices_S32x256x16_o0_0_8_S32x256x1 : S32x256x16.Slices ![0, 0, 8] S32x256x1
  slices_S32x256x16_o0_0_9_S32x256x1 : S32x256x16.Slices ![0, 0, 9] S32x256x1
  slices_S32x256x16_o0_0_10_S32x256x1 : S32x256x16.Slices ![0, 0, 10] S32x256x1
  slices_S32x256x16_o0_0_11_S32x256x1 : S32x256x16.Slices ![0, 0, 11] S32x256x1
  slices_S32x256x16_o0_0_12_S32x256x1 : S32x256x16.Slices ![0, 0, 12] S32x256x1
  slices_S32x256x16_o0_0_13_S32x256x1 : S32x256x16.Slices ![0, 0, 13] S32x256x1
  slices_S32x256x16_o0_0_14_S32x256x1 : S32x256x16.Slices ![0, 0, 14] S32x256x1
  slices_S32x256x16_o0_0_15_S32x256x1 : S32x256x16.Slices ![0, 0, 15] S32x256x1
  reduces_S32x256x128_S32x128 : S32x256x128.Reduces [1] S32x128
  shapeCasts_S32x128_S32x128 : S32x128.ShapeCasts S32x128
  concatenates_S64x128_S64x128_S64x256_d1 : Shape.Concatenates [S64x128, S64x128] S64x256 1
  transposes_S256x256_S256x256_1_0 : S256x256.Transposes [1, 0] S256x256
  bcast_S_S64x256 : S_.BroadcastsInDim S64x256 (![] : Fin 0 → Fin S64x256.rank)
  transposes_S128x256_S256x128_1_0 : S128x256.Transposes [1, 0] S256x128
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  dot_S16x8x1_S16x1x32_S16x8x32_2_1_1_2_0_0_wf : DotDims.WF S16x8x1 S16x1x32 S16x8x32 [2] [1] [1] [2] [0] [0]
  dot_S128x32_S32x1_S128x1_1_0_0_1_n_n_wf : DotDims.WF S128x32 S32x1 S128x1 [1] [0] [0] [1] [] []
  dot_S64x256_S256x256_S64x256_1_0_0_1_n_n_wf : DotDims.WF S64x256 S256x256 S64x256 [1] [0] [0] [1] [] []
  dot_S64x256_S256x128_S64x128_1_0_0_1_n_n_wf : DotDims.WF S64x256 S256x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x16.size a ≤ S64x1024x16.size a
  hwx0_0 : ∀ i : grid0.Coords, EltTy.bits .f32 = 32 ∨ (Rect.block (s := S64x1024x16) S32x256x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S64x128.size a
  hwx0_3 : ∀ i : grid0.Coords, EltTy.bits .f32 = 32 ∨ (Rect.block (s := S64x128) S32x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x256x16.size a ≤ S64x1024x16.size a
  hwx1_0 : ∀ i : grid1.Coords, EltTy.bits .f32 = 32 ∨ (Rect.block (s := S64x1024x16) S32x256x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x128.size a ≤ S64x128.size a
  hwx1_3 : ∀ i : grid1.Coords, EltTy.bits .f32 = 32 ∨ (Rect.block (s := S64x128) S32x128.size (cc1_transform_3 i) (hinb1_3 i)).WholeWords (EltTy.packing .f32)

variable [Facts₀]

def dot_S16x8x1_S16x1x32_S16x8x32_2_1_1_2_0_0 : DotDims S16x8x1 S16x1x32 S16x8x32 where
  lhsContracting := [2]
  rhsContracting := [1]
  lhsNonContracting := [1]
  rhsNonContracting := [2]
  lhsBatch := [0]
  rhsBatch := [0]
  wf := dot_S16x8x1_S16x1x32_S16x8x32_2_1_1_2_0_0_wf
def dot_S128x32_S32x1_S128x1_1_0_0_1_n_n : DotDims S128x32 S32x1 S128x1 where
  lhsContracting := [1]
  rhsContracting := [0]
  lhsNonContracting := [0]
  rhsNonContracting := [1]
  lhsBatch := []
  rhsBatch := []
  wf := dot_S128x32_S32x1_S128x1_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf

abbrev win0_0 : Pipeline.Window sig grid0 :=
  Pipeline.Window.ofSpec (Memref.whole main_arg0) S32x256x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S32x256x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S32x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x1024x16 : Shape := ⟨3, ![64, 1024, 16]⟩
abbrev S32x1 : Shape := ⟨2, ![32, 1]⟩
abbrev S16x8x1 : Shape := ⟨3, ![16, 8, 1]⟩
abbrev S16x1x32 : Shape := ⟨3, ![16, 1, 32]⟩
abbrev S128 : Shape := ⟨1, ![128]⟩
abbrev S256x256 : Shape := ⟨2, ![256, 256]⟩
abbrev S128x256 : Shape := ⟨2, ![128, 256]⟩
abbrev S16x8x32 : Shape := ⟨3, ![16, 8, 32]⟩
abbrev S128x32 : Shape := ⟨2, ![128, 32]⟩
abbrev S128x1 : Shape := ⟨2, ![128, 1]⟩
abbrev S64x1024x16x1 : Shape := ⟨4, ![64, 1024, 16, 1]⟩
abbrev S1x1x1x128 : Shape := ⟨4, ![1, 1, 1, 128]⟩
abbrev S64x1024x16x128 : Shape := ⟨4, ![64, 1024, 16, 128]⟩
abbrev S_ : Shape := ⟨0, ![]⟩
abbrev S64x1024x128 : Shape := ⟨3, ![64, 1024, 128]⟩
abbrev S64x128 : Shape := ⟨2, ![64, 128]⟩
abbrev S64x256 : Shape := ⟨2, ![64, 256]⟩
abbrev S256x128 : Shape := ⟨2, ![256, 128]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S64x1024x16, .f32⟩
  | .hbm, ⟨1, _⟩ => ⟨S64x1024x16, .f32⟩
  | .hbm, ⟨2, _⟩ => ⟨S32x1, .f32⟩
  | .hbm, ⟨3, _⟩ => ⟨S16x8x1, .f32⟩
  | .hbm, ⟨4, _⟩ => ⟨S16x1x32, .f32⟩
  | .hbm, ⟨5, _⟩ => ⟨S128, .f32⟩
  | .hbm, ⟨6, _⟩ => ⟨S32x1, .f32⟩
  | .hbm, ⟨7, _⟩ => ⟨S16x8x1, .f32⟩
  | .hbm, ⟨8, _⟩ => ⟨S16x1x32, .f32⟩
  | .hbm, ⟨9, _⟩ => ⟨S128, .f32⟩
  | .hbm, ⟨10, _⟩ => ⟨S256x256, .f32⟩
  | .hbm, ⟨11, _⟩ => ⟨S128x256, .f32⟩
  | .hbm, ⟨12, _⟩ => ⟨S128, .f32⟩
  | .hbm, ⟨13, _⟩ => ⟨S16x8x32, .f32⟩
  | .hbm, ⟨14, _⟩ => ⟨S128x32, .f32⟩
  | .hbm, ⟨15, _⟩ => ⟨S128x1, .f32⟩
  | .hbm, ⟨16, _⟩ => ⟨S128, .f32⟩
  | .hbm, ⟨17, _⟩ => ⟨S64x1024x16x1, .f32⟩
  | .hbm, ⟨18, _⟩ => ⟨S1x1x1x128, .f32⟩
  | .hbm, ⟨19, _⟩ => ⟨S64x1024x16x128, .f32⟩
  | .hbm, ⟨20, _⟩ => ⟨S64x1024x16x128, .f32⟩
  | .hbm, ⟨21, _⟩ => ⟨S64x1024x16x128, .f32⟩
  | .hbm, ⟨22, _⟩ => ⟨S1x1x1x128, .f32⟩
  | .hbm, ⟨23, _⟩ => ⟨S64x1024x16x128, .f32⟩
  | .hbm, ⟨24, _⟩ => ⟨S64x1024x16x128, .f32⟩
  | .hbm, ⟨25, _⟩ => ⟨S64x1024x16x128, .f32⟩
  | .hbm, ⟨26, _⟩ => ⟨S64x1024x16x128, .f32⟩
  | .hbm, ⟨27, _⟩ => ⟨S_, .f32⟩
  | .hbm, ⟨28, _⟩ => ⟨S64x1024x16x128, .f32⟩
  | .hbm, ⟨29, _⟩ => ⟨S64x1024x16x128, .f32⟩
  | .hbm, ⟨30, _⟩ => ⟨S_, .f32⟩
  | .hbm, ⟨31, _⟩ => ⟨S64x1024x16x128, .f32⟩
  | .hbm, ⟨32, _⟩ => ⟨S64x1024x16x128, .f32⟩
  | .hbm, ⟨33, _⟩ => ⟨S_, .f32⟩
  | .hbm, ⟨34, _⟩ => ⟨S64x1024x128, .f32⟩
  | .hbm, ⟨35, _⟩ => ⟨S_, .f32⟩
  | .hbm, ⟨36, _⟩ => ⟨S64x128, .f32⟩
  | .hbm, ⟨37, _⟩ => ⟨S16x8x32, .f32⟩
  | .hbm, ⟨38, _⟩ => ⟨S128x32, .f32⟩
  | .hbm, ⟨39, _⟩ => ⟨S128x1, .f32⟩
  | .hbm, ⟨40, _⟩ => ⟨S128, .f32⟩
  | .hbm, ⟨41, _⟩ => ⟨S64x1024x16x1, .f32⟩
  | .hbm, ⟨42, _⟩ => ⟨S1x1x1x128, .f32⟩
  | .hbm, ⟨43, _⟩ => ⟨S64x1024x16x128, .f32⟩
  | .hbm, ⟨44, _⟩ => ⟨S64x1024x16x128, .f32⟩
  | .hbm, ⟨45, _⟩ => ⟨S64x1024x16x128, .f32⟩
  | .hbm, ⟨46, _⟩ => ⟨S1x1x1x128, .f32⟩
  | .hbm, ⟨47, _⟩ => ⟨S64x1024x16x128, .f32⟩
  | .hbm, ⟨48, _⟩ => ⟨S64x1024x16x128, .f32⟩
  | .hbm, ⟨49, _⟩ => ⟨S64x1024x16x128, .f32⟩
  | .hbm, ⟨50, _⟩ => ⟨S64x1024x16x128, .f32⟩
  | .hbm, ⟨51, _⟩ => ⟨S_, .f32⟩
  | .hbm, ⟨52, _⟩ => ⟨S64x1024x16x128, .f32⟩
  | .hbm, ⟨53, _⟩ => ⟨S64x1024x16x128, .f32⟩
  | .hbm, ⟨54, _⟩ => ⟨S_, .f32⟩
  | .hbm, ⟨55, _⟩ => ⟨S64x1024x16x128, .f32⟩
  | .hbm, ⟨56, _⟩ => ⟨S64x1024x16x128, .f32⟩
  | .hbm, ⟨57, _⟩ => ⟨S_, .f32⟩
  | .hbm, ⟨58, _⟩ => ⟨S64x1024x128, .f32⟩
  | .hbm, ⟨59, _⟩ => ⟨S_, .f32⟩
  | .hbm, ⟨60, _⟩ => ⟨S64x128, .f32⟩
  | .hbm, ⟨61, _⟩ => ⟨S64x256, .f32⟩
  | .hbm, ⟨62, _⟩ => ⟨S256x256, .f32⟩
  | .hbm, ⟨63, _⟩ => ⟨S64x256, .f32⟩
  | .hbm, ⟨64, _⟩ => ⟨S64x256, .f32⟩
  | .hbm, ⟨65, _⟩ => ⟨S64x256, .f32⟩
  | .hbm, ⟨66, _⟩ => ⟨S_, .f32⟩
  | .hbm, ⟨67, _⟩ => ⟨S64x256, .f32⟩
  | .hbm, ⟨68, _⟩ => ⟨S64x256, .f32⟩
  | .hbm, ⟨69, _⟩ => ⟨S_, .f32⟩
  | .hbm, ⟨70, _⟩ => ⟨S64x256, .f32⟩
  | .hbm, ⟨71, _⟩ => ⟨S64x256, .f32⟩
  | .hbm, ⟨72, _⟩ => ⟨S256x128, .f32⟩
  | .hbm, ⟨73, _⟩ => ⟨S64x128, .f32⟩
  | .hbm, ⟨74, _⟩ => ⟨S1x128, .f32⟩
  | .hbm, ⟨75, _⟩ => ⟨S64x128, .f32⟩
  | .hbm, ⟨76, _⟩ => ⟨S64x128, .f32⟩
  | _, _ => ⟨S64x1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]

class Facts₀ : Prop where
  shapeCasts_S16x8x32_S128x32 : S16x8x32.ShapeCasts S128x32
  shapeCasts_S128x1_S128 : S128x1.ShapeCasts S128
  bcast_S64x1024x16_S64x1024x16x1_0_1_2 : S64x1024x16.BroadcastsInDim S64x1024x16x1 (![0, 1, 2] : Fin 3 → Fin S64x1024x16x1.rank)
  bcast_S128_S1x1x1x128_3 : S128.BroadcastsInDim S1x1x1x128 (![3] : Fin 1 → Fin S1x1x1x128.rank)
  bcast_S64x1024x16x1_S64x1024x16x128_0_1_2_3 : S64x1024x16x1.BroadcastsInDim S64x1024x16x128 (![0, 1, 2, 3] : Fin 4 → Fin S64x1024x16x128.rank)
  bcast_S1x1x1x128_S64x1024x16x128_0_1_2_3 : S1x1x1x128.BroadcastsInDim S64x1024x16x128 (![0, 1, 2, 3] : Fin 4 → Fin S64x1024x16x128.rank)
  bcast_S_S64x1024x16x128 : S_.BroadcastsInDim S64x1024x16x128 (![] : Fin 0 → Fin S64x1024x16x128.rank)
  reducesTo_S64x1024x16x128_S64x1024x128_d2 : S64x1024x16x128.ReducesTo [2] S64x1024x128
  h_S_ : 0 < S_.numel
  reducesTo_S64x1024x128_S64x128_d1 : S64x1024x128.ReducesTo [1] S64x128
  concatenates_S64x128_S64x128_S64x256_d1 : Shape.Concatenates [S64x128, S64x128] S64x256 1
  transposes_S256x256_S256x256_1_0 : S256x256.Transposes [1, 0] S256x256
  bcast_S_S64x256 : S_.BroadcastsInDim S64x256 (![] : Fin 0 → Fin S64x256.rank)
  transposes_S128x256_S256x128_1_0 : S128x256.Transposes [1, 0] S256x128
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  dot_S16x8x1_S16x1x32_S16x8x32_2_1_1_2_0_0_wf : DotDims.WF S16x8x1 S16x1x32 S16x8x32 [2] [1] [1] [2] [0] [0]
  dot_S128x32_S32x1_S128x1_1_0_0_1_n_n_wf : DotDims.WF S128x32 S32x1 S128x1 [1] [0] [0] [1] [] []
  dot_S64x256_S256x256_S64x256_1_0_0_1_n_n_wf : DotDims.WF S64x256 S256x256 S64x256 [1] [0] [0] [1] [] []
  dot_S64x256_S256x128_S64x128_1_0_0_1_n_n_wf : DotDims.WF S64x256 S256x128 S64x128 [1] [0] [0] [1] [] []

variable [Facts₀]

def dot_S16x8x1_S16x1x32_S16x8x32_2_1_1_2_0_0 : DotDims S16x8x1 S16x1x32 S16x8x32 where
  lhsContracting := [2]
  rhsContracting := [1]
  lhsNonContracting := [1]
  rhsNonContracting := [2]
  lhsBatch := [0]
  rhsBatch := [0]
  wf := dot_S16x8x1_S16x1x32_S16x8x32_2_1_1_2_0_0_wf
def dot_S128x32_S32x1_S128x1_1_0_0_1_n_n : DotDims S128x32 S32x1 S128x1 where
  lhsContracting := [1]
  rhsContracting := [0]
  lhsNonContracting := [0]
  rhsNonContracting := [1]
  lhsBatch := []
  rhsBatch := []
  wf := dot_S128x32_S32x1_S128x1_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf

class Facts : Prop extends Facts₀ where

variable [Facts]
-- ==== Proof.PoolSpec.lean ====
/-
  The pooled value that both programs compute, as ONE function of the argument arrays, index by index over the
  extended reals, and the two regroupings that join the kernel's arrangement of it to the reference's.

  For a batch row `r`, a projection lane `q` and a set element `n`, the gate at feature `d` is the logistic of
  `x[r, n, d] · w[q] + v[q]`. The pooled value at `(r, q)` is the sum over the 1024 set elements of the largest
  of the sixteen gates, started from the zero word.

  * The largest of sixteen. The reference reduces with `max` from `-∞`, in no stated order; the kernel folds
    pairwise from the first gate, `max (max (g 0) (g 1)) (g 2) …`. Both are the least upper bound of the sixteen
    values: `⊥` is the identity of `max` on the extended reals (`nest16_eq_top16`).
  * The sum over the set axis. The kernel visits the set axis in four tiles of 256 and keeps a running block,
    `(((z + P₀) + P₁) + P₂) + P₃` with `Pⱼ` the sum over tile `j`; the reference adds all 1024 terms to `z`.
    Addition on the extended reals is commutative and associative, so the two agree with no finiteness
    hypothesis (`sum_tiles`, `run_last`).
-/
import Idealize.ShloMosaic.PureOps.Ideal
import Idealize.ShloMosaic.PureOps.Ideal.Laws
import Idealize.ShloMosaic.Lib.ValueIdx
import Mathlib.Data.Finset.Fold

noncomputable section

open Idealize.ShloMosaic Idealize.ShloMosaic.ValueIdx
open scoped BigOperators

namespace Cert.PoolSpec

/-- The set-and-feature array, a lane vector, and the pooled result, at their literal shapes. -/
abbrev SX : Shape := ⟨3, ![64, 1024, 16]⟩
abbrev SL : Shape := ⟨1, ![128]⟩
abbrev SP : Shape := ⟨2, ![64, 128]⟩

/-- One gate: the logistic of `x · w + v`. -/
def gate (x w v : EReal) : EReal := Ideal.logistic (x * w + v)

/-- The largest of sixteen values, as a fold of `max` from `⊥` in no particular order. -/
def top16 (g : Fin 16 → EReal) : EReal := (Finset.univ : Finset (Fin 16)).fold max ⊥ g

/-- The largest of sixteen values, folded pairwise from the first. -/
def nest16 (g : Fin 16 → EReal) : EReal :=
  max (max (max (max (max (max (max (max (max (max (max (max (max (max (max (g 0) (g 1)) (g 2)) (g 3)) (g 4)) (g 5)) (g 6))
    (g 7)) (g 8)) (g 9)) (g 10)) (g 11)) (g 12)) (g 13)) (g 14)) (g 15)

/-- Folding pairwise from the first value and folding from `⊥` in any order give the same maximum. -/
theorem nest16_eq_top16 (g : Fin 16 → EReal) : nest16 g = top16 g := by
  apply le_antisymm
  · unfold nest16 top16
    simp only [max_le_iff]
    refine ⟨⟨⟨⟨⟨⟨⟨⟨⟨⟨⟨⟨⟨⟨⟨?_, ?_⟩, ?_⟩, ?_⟩, ?_⟩, ?_⟩, ?_⟩, ?_⟩, ?_⟩, ?_⟩, ?_⟩, ?_⟩, ?_⟩, ?_⟩, ?_⟩, ?_⟩ <;>
      exact (Finset.le_fold_max _).mpr (Or.inr ⟨_, Finset.mem_univ _, le_rfl⟩)
  · unfold top16
    refine (Finset.fold_max_le _).mpr ⟨bot_le, fun i _ => ?_⟩
    fin_cases i <;> simp [nest16, le_max_iff]

/-- The gate of row `r`, lane `q`, set element `n`, feature `d`. -/
def cell (X : SX.Idx → EReal) (W B : SL.Idx → EReal) (r : Fin 64) (q : Fin 128) (n : Fin 1024) (d : Fin 16) : EReal :=
  gate (X (ix3 r n d)) (W (ix1 q)) (B (ix1 q))

/-- The pooled term of one set element: the largest gate over the sixteen features. -/
def peak (X : SX.Idx → EReal) (W B : SL.Idx → EReal) (r : Fin 64) (q : Fin 128) (n : Fin 1024) : EReal :=
  top16 (fun d => cell X W B r q n d)

/-- The pooled value at row `r`, lane `q`: the zero word plus the sum of the peaks over the set axis. -/
def poolAt (X : SX.Idx → EReal) (W B : SL.Idx → EReal) (r : Fin 64) (q : Fin 128) : EReal :=
  Ideal.ofBits .f32 0x00000000#32 + ∑ n : Fin 1024, peak X W B r q n

/-- The pooled array. -/
def pool (X : SX.Idx → EReal) (W B : SL.Idx → EReal) : SP.Idx → EReal := fun j => poolAt X W B (j 0) (j 1)

/-- Element `n'` of tile `j` of the set axis. -/
def tileAt (j : Fin 4) (n' : Fin 256) : Fin 1024 := ⟨256 * j.val + n'.val, by have := j.isLt; have := n'.isLt; omega⟩

/-- A sum over the set axis is the sum over the four tiles of the sums within each. -/
theorem sum_tiles (f : Fin 1024 → EReal) : ∑ n : Fin 1024, f n = ∑ j : Fin 4, ∑ n' : Fin 256, f (tileAt j n') := by
  have e : ∀ p : Fin 4 × Fin 256, (finProdFinEquiv p : Fin (4 * 256)) = tileAt p.1 p.2 := fun p =>
    Fin.ext (by simp only [finProdFinEquiv, Equiv.coe_fn_mk, tileAt]; omega)
  calc ∑ n : Fin 1024, f n = ∑ p : Fin 4 × Fin 256, f (finProdFinEquiv p) :=
        (Fintype.sum_equiv (finProdFinEquiv (m := 4) (n := 256)) (fun p => f (finProdFinEquiv p)) f (fun _ => rfl)).symm
    _ = ∑ p : Fin 4 × Fin 256, f (tileAt p.1 p.2) := by simp only [e]
    _ = _ := Fintype.sum_prod_type _

/-- The sum of the peaks over tile `j` of row `r`, lane `q`. -/
def tileSum (X : SX.Idx → EReal) (W B : SL.Idx → EReal) (r : Fin 64) (q : Fin 128) (j : Fin 4) : EReal :=
  ∑ n' : Fin 256, peak X W B r q (tileAt j n')

/-- The running value after tile `k`: the zero word, then the tiles `0 … k` added in order. -/
def runTo (X : SX.Idx → EReal) (W B : SL.Idx → EReal) (r : Fin 64) (q : Fin 128) : ℕ → EReal
  | 0 => Ideal.ofBits .f32 0x00000000#32 + tileSum X W B r q 0
  | k + 1 => runTo X W B r q k + (if h : k + 1 < 4 then tileSum X W B r q ⟨k + 1, h⟩ else 0)

/-- After the last tile the running value is the pooled value. -/
theorem run_last (X : SX.Idx → EReal) (W B : SL.Idx → EReal) (r : Fin 64) (q : Fin 128) :
    runTo X W B r q 3 = poolAt X W B r q := by
  unfold poolAt
  rw [sum_tiles, Fin.sum_univ_four]
  simp only [runTo, tileSum, Nat.reduceAdd, Nat.reduceLT, dite_true, add_assoc]
  rfl

end Cert.PoolSpec

end
-- ==== Proof.Body0.lean ====
/-
  Region 0's body, read as values at the extended reals. One grid point holds a block of 32 batch rows by 256 set
  elements by 16 features, the 128 lane weights `w` and the 128 lane offsets `v`. For each feature `d` the body
  forms the gate `logistic (x[b, n, d] · w[q] + v[q])`, keeps the running maximum over `d` folded pairwise from the
  first feature, sums the maxima over the block's 256 set elements, and adds the sum into the output block.
  At the first tile of a row block (case A) the output block is first set to the zero word; at the others (case B) it
  holds what the previous point left.
-/
import proofs.«174952_j36584531427734_1_alg».proof.Proof.Gen.KernelIdeal.Frame
import proofs.«174952_j36584531427734_1_alg».proof.Proof.PoolSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open scoped BigOperators

namespace Cert.KernelIdeal.Body0

open Cert.KernelIdeal Cert.KernelIdeal.Gen Cert.PoolSpec

/-- What one grid point adds at row `b`, lane `q` of the output block: the sum over the block's 256 set elements of
    the largest of the sixteen gates. -/
def tileTerm (x : Vec Ideal S32x256x16 .f32) (w v : Vec Ideal S128 .f32) (b : Fin 32) (q : Fin 128) : EReal :=
  ∑ n : Fin 256, nest16 (fun d => gate (x (ix3 b n d)) (w (ix1 q)) (v (ix1 q)))

/-- The zero offsets of each rank, as the constant function. -/
theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The gate of feature `d` at batch row `b`, set element `n`, lane `q` of one block. -/
def gateAt (x : Vec Ideal S32x256x16 .f32) (w v : Vec Ideal S128 .f32) (b : Fin 32) (n : Fin 256) (q : Fin 128)
    (d : Fin 16) : EReal :=
  gate (x (ix3 b n d)) (w (ix1 q)) (v (ix1 q))

/-- Feature `d` of the block, laid along the lanes: at `(b, n, q)` it is `x[b, n, d]`. -/
theorem feat_apply (x : FVec Ideal S32x256x16 .f32) (off : Fin 3 → ℕ) (d : Fin 16) (hoff : off = ![0, 0, d.val])
    (h : S32x256x16.Slices off S32x256x1) (h1 : S32x256x1.ShapeCasts S32x256) (h2 : S32x256.ShapeCasts S32x256x1)
    (h3 : S32x256x1.Broadcasts S32x256x128) (b : Fin 32) (n : Fin 256) (q : Fin 128) :
    broadcastTo S32x256x128 (shapeCast S32x256x1 (shapeCast S32x256 (extractStridedSlice S32x256x1 off x h) h1) h2) h3
      (ix3 b n q) = x (ix3 b n d) := by
  subst hoff
  rw [shapeCast_shapeCast]
  refine (broadcastTo_apply _ h3 (ix3 b n q) (ix3 b n (0 : Fin 1)) ?_).trans ?_
  · intro a
    match a with
    | ⟨0, _⟩ => rfl
    | ⟨1, _⟩ => rfl
    | ⟨2, _⟩ => rfl
  refine extractStridedSlice_apply _ x h (ix3 b n (0 : Fin 1)) (ix3 b n d) ?_
  intro a
  match a with
  | ⟨0, _⟩ => show b.val = 0 + b.val; omega
  | ⟨1, _⟩ => show n.val = 0 + n.val; omega
  | ⟨2, _⟩ => show d.val = d.val + 0; omega

/-- A lane vector laid along the rows and the set elements: at `(b, n, q)` it is its entry `q`. -/
theorem lane_apply (u : FVec Ideal S128 .f32) (h1 : S128.ShapeCasts S1x1x128) (h2 : S1x1x128.Broadcasts S32x256x128)
    (b : Fin 32) (n : Fin 256) (q : Fin 128) :
    broadcastTo S32x256x128 (shapeCast S1x1x128 u h1) h2 (ix3 b n q) = u (ix1 q) := by
  refine (broadcastTo_apply _ h2 (ix3 b n q) (ix3 (0 : Fin 1) (0 : Fin 1) q) ?_).trans ?_
  · intro a
    match a with
    | ⟨0, _⟩ => rfl
    | ⟨1, _⟩ => rfl
    | ⟨2, _⟩ => rfl
  refine shapeCast_apply u h1 (ix3 (0 : Fin 1) (0 : Fin 1) q) (ix1 q) ?_
  rw [Shape.rowMajor_val_one, Shape.rowMajor_val_three]
  show q.val = (0 * 1 + 0) * 128 + q.val
  omega

/-- The sum over the set axis, read at row `b`, lane `q`. -/
theorem setSum_apply (src : FVec Ideal S32x256x128 .f32) (h : S32x256x128.Reduces [1] S32x128) (hφ : FKind.Formats .f32)
    (hacc : (0x00000000#32 : BitVec 32) = FKind.add.neutral .f32 hφ) (b : Fin 32) (q : Fin 128) :
    multiReduction (F := Ideal) .add [1] S32x128 src 0x00000000#32 h hφ hacc (ix2 b q) = ∑ n : Fin 256, src (ix3 b n q) := by
  refine (Ideal.multiReduction_add_single src 0x00000000#32 h hφ hacc (ix2 b q)).trans ?_
  refine Finset.sum_congr rfl fun n _ => congrArg src ?_
  funext a
  match a with
  | ⟨0, _⟩ => rfl
  | ⟨1, _⟩ => rfl
  | ⟨2, _⟩ => rfl

/-- The logistic of a vector, read at an index. -/
theorem logistic_apply {s : Shape} {φ : FTy} (a : FVec Ideal s φ) (i : s.Idx) : logistic a i = Ideal.logistic (a i) := rfl

/-- One whole gate vector — feature `d` times the lane weights plus the lane offsets, through the logistic — at `(b, n, q)`. -/
theorem gateVec_apply (x : FVec Ideal S32x256x16 .f32) (w v : FVec Ideal S128 .f32) (off : Fin 3 → ℕ) (d : Fin 16)
    (hoff : off = ![0, 0, d.val]) (h : S32x256x16.Slices off S32x256x1) (h1 : S32x256x1.ShapeCasts S32x256)
    (h2 : S32x256.ShapeCasts S32x256x1) (h3 : S32x256x1.Broadcasts S32x256x128) (h4 : S128.ShapeCasts S1x1x128)
    (h5 : S1x1x128.Broadcasts S32x256x128) (h6 : S128.ShapeCasts S1x1x128) (h7 : S1x1x128.Broadcasts S32x256x128)
    (b : Fin 32) (n : Fin 256) (q : Fin 128) :
    logistic (addf (mulf (broadcastTo S32x256x128 (shapeCast S32x256x1 (shapeCast S32x256
        (extractStridedSlice S32x256x1 off x h) h1) h2) h3) (broadcastTo S32x256x128 (shapeCast S1x1x128 w h4) h5))
        (broadcastTo S32x256x128 (shapeCast S1x1x128 v h6) h7)) (ix3 b n q) = gateAt x w v b n q d := by
  rw [logistic_apply, addf_apply, mulf_apply, feat_apply x off d hoff h h1 h2 h3 b n q, lane_apply w h4 h5 b n q,
    lane_apply v h6 h7 b n q]
  rfl

/-- A gate whose product was formed earlier: the logistic of the product plus the lane offsets, at `(b, n, q)`. -/
theorem gateTail_apply (x : FVec Ideal S32x256x16 .f32) (w v : FVec Ideal S128 .f32) (p : FVec Ideal S32x256x128 .f32)
    (d : Fin 16) (b : Fin 32) (n : Fin 256) (q : Fin 128) (hp : p (ix3 b n q) = x (ix3 b n d) * w (ix1 q))
    (h6 : S128.ShapeCasts S1x1x128) (h7 : S1x1x128.Broadcasts S32x256x128) :
    logistic (addf p (broadcastTo S32x256x128 (shapeCast S1x1x128 v h6) h7)) (ix3 b n q) = gateAt x w v b n q d := by
  rw [logistic_apply, addf_apply, hp, lane_apply v h6 h7 b n q]
  rfl

/-- A product formed ahead of its gate: feature `d` times the lane weights, at `(b, n, q)`. -/
theorem prodVec_apply (x : FVec Ideal S32x256x16 .f32) (w : FVec Ideal S128 .f32) (off : Fin 3 → ℕ) (d : Fin 16)
    (hoff : off = ![0, 0, d.val]) (h : S32x256x16.Slices off S32x256x1) (h1 : S32x256x1.ShapeCasts S32x256)
    (h2 : S32x256.ShapeCasts S32x256x1) (h3 : S32x256x1.Broadcasts S32x256x128) (h4 : S128.ShapeCasts S1x1x128)
    (h5 : S1x1x128.Broadcasts S32x256x128) (b : Fin 32) (n : Fin 256) (q : Fin 128) :
    mulf (broadcastTo S32x256x128 (shapeCast S32x256x1 (shapeCast S32x256
        (extractStridedSlice S32x256x1 off x h) h1) h2) h3) (broadcastTo S32x256x128 (shapeCast S1x1x128 w h4) h5)
      (ix3 b n q) = x (ix3 b n d) * w (ix1 q) := by
  rw [mulf_apply, feat_apply x off d hoff h h1 h2 h3 b n q, lane_apply w h4 h5 b n q]

/-- The identity cast of the lane weights. -/
theorem pay3_eq (w : Vec Ideal S128 .f32) : k0_pay3 w = w := by
  unfold k0_pay3
  exact shapeCast_self w _

/-- The first three gates, folded from the first. -/
theorem pay4_apply (x : Vec Ideal S32x256x16 .f32) (w v : Vec Ideal S128 .f32) (b : Fin 32) (n : Fin 256) (q : Fin 128) :
    k0_pay4 x w v (ix3 b n q) = max (max (gateAt x w v b n q 0) (gateAt x w v b n q 1)) (gateAt x w v b n q 2) := by
  unfold k0_pay4
  rw [pay3_eq]
  simp only [maximumf_apply, gateVec_apply x w v ![0, 0, 0] 0 rfl, gateVec_apply x w v ![0, 0, 1] 1 rfl,
    gateVec_apply x w v ![0, 0, 2] 2 rfl]

/-- The product of feature 3 with the lane weights. -/
theorem pay5_apply (x : Vec Ideal S32x256x16 .f32) (w : Vec Ideal S128 .f32) (b : Fin 32) (n : Fin 256) (q : Fin 128) :
    k0_pay5 x w (ix3 b n q) = x (ix3 b n 3) * w (ix1 q) := by
  unfold k0_pay5
  rw [pay3_eq]
  exact prodVec_apply x w ![0, 0, 3] 3 rfl _ _ _ _ _ _ b n q

/-- Gates 3 to 7 folded onto what came before; the product of gate 3 arrives formed. -/
theorem pay7_apply (x : Vec Ideal S32x256x16 .f32) (w v : Vec Ideal S128 .f32) (v41 v48 : FVec Ideal S32x256x128 .f32)
    (b : Fin 32) (n : Fin 256) (q : Fin 128) (A : EReal) (h41 : v41 (ix3 b n q) = A)
    (h48 : v48 (ix3 b n q) = x (ix3 b n 3) * w (ix1 q)) :
    k0_pay7 x w v v41 v48 (k0_pay6 v) (ix3 b n q)
      = max (max (max (max (max A (gateAt x w v b n q 3)) (gateAt x w v b n q 4)) (gateAt x w v b n q 5))
          (gateAt x w v b n q 6)) (gateAt x w v b n q 7) := by
  unfold k0_pay7 k0_pay6
  simp only [maximumf_apply, gateVec_apply x w v ![0, 0, 4] 4 rfl, gateVec_apply x w v ![0, 0, 5] 5 rfl,
    gateVec_apply x w v ![0, 0, 6] 6 rfl, gateVec_apply x w v ![0, 0, 7] 7 rfl,
    gateTail_apply x w v v48 3 b n q h48, h41]

/-- The product of feature 8 with the lane weights. -/
theorem pay8_apply (x : Vec Ideal S32x256x16 .f32) (w : Vec Ideal S128 .f32) (b : Fin 32) (n : Fin 256) (q : Fin 128) :
    k0_pay8 x w (ix3 b n q) = x (ix3 b n 8) * w (ix1 q) := by
  unfold k0_pay8
  exact prodVec_apply x w ![0, 0, 8] 8 rfl _ _ _ _ _ _ b n q

/-- Gates 8 to 12 folded onto what came before; the product of gate 8 arrives formed. -/
theorem pay10_apply (x : Vec Ideal S32x256x16 .f32) (w v : Vec Ideal S128 .f32) (v101 v108 : FVec Ideal S32x256x128 .f32)
    (b : Fin 32) (n : Fin 256) (q : Fin 128) (A : EReal) (h101 : v101 (ix3 b n q) = A)
    (h108 : v108 (ix3 b n q) = x (ix3 b n 8) * w (ix1 q)) :
    k0_pay10 x w v v101 v108 (k0_pay9 v) (ix3 b n q)
      = max (max (max (max (max A (gateAt x w v b n q 8)) (gateAt x w v b n q 9)) (gateAt x w v b n q 10))
          (gateAt x w v b n q 11)) (gateAt x w v b n q 12) := by
  unfold k0_pay10 k0_pay9
  simp only [maximumf_apply, gateVec_apply x w v ![0, 0, 9] 9 rfl, gateVec_apply x w v ![0, 0, 10] 10 rfl,
    gateVec_apply x w v ![0, 0, 11] 11 rfl, gateVec_apply x w v ![0, 0, 12] 12 rfl,
    gateTail_apply x w v v108 8 b n q h108, h101]

/-- The product of feature 13 with the lane weights. -/
theorem pay11_apply (x : Vec Ideal S32x256x16 .f32) (w : Vec Ideal S128 .f32) (b : Fin 32) (n : Fin 256) (q : Fin 128) :
    k0_pay11 x w (ix3 b n q) = x (ix3 b n 13) * w (ix1 q) := by
  unfold k0_pay11
  exact prodVec_apply x w ![0, 0, 13] 13 rfl _ _ _ _ _ _ b n q

/-- The first thirteen gates, folded from the first. -/
theorem fold13_apply (x : Vec Ideal S32x256x16 .f32) (w v : Vec Ideal S128 .f32) (b : Fin 32) (n : Fin 256) (q : Fin 128) :
    k0_pay10 x w v (k0_pay7 x w v (k0_pay4 x w v) (k0_pay5 x w) (k0_pay6 v)) (k0_pay8 x w) (k0_pay9 v) (ix3 b n q)
      = max (max (max (max (max (max (max (max (max (max (max (max (gateAt x w v b n q 0) (gateAt x w v b n q 1))
          (gateAt x w v b n q 2)) (gateAt x w v b n q 3)) (gateAt x w v b n q 4)) (gateAt x w v b n q 5))
          (gateAt x w v b n q 6)) (gateAt x w v b n q 7)) (gateAt x w v b n q 8)) (gateAt x w v b n q 9))
          (gateAt x w v b n q 10)) (gateAt x w v b n q 11)) (gateAt x w v b n q 12) :=
  pay10_apply x w v _ _ b n q _
    (pay7_apply x w v _ _ b n q _ (pay4_apply x w v b n q) (pay5_apply x w b n q)) (pay8_apply x w b n q)

/-- The last three gates folded on, the sum over the set axis, and the sum added to the block. -/
theorem pay1_apply (x : Vec Ideal S32x256x16 .f32) (w v : Vec Ideal S128 .f32) (v161 v168 : FVec Ideal S32x256x128 .f32)
    (xo : Vec Ideal S32x128 .f32) (b : Fin 32) (q : Fin 128) (A : Fin 256 → EReal)
    (h161 : ∀ n, v161 (ix3 b n q) = A n) (h168 : ∀ n, v168 (ix3 b n q) = x (ix3 b n 13) * w (ix1 q)) :
    k0_pay1 x w v v161 v168 (k0_pay12 v) xo (ix2 b q)
      = xo (ix2 b q) + ∑ n : Fin 256, max (max (max (A n) (gateAt x w v b n q 13)) (gateAt x w v b n q 14))
          (gateAt x w v b n q 15) := by
  unfold k0_pay1 k0_pay12
  refine (addf_apply _ _ _).trans ?_
  refine congrArg₂ (· + ·) (congrFun (shapeCast_self xo _) _) ?_
  refine (setSum_apply _ _ _ _ b q).trans ?_
  refine Finset.sum_congr rfl fun n _ => ?_
  simp only [maximumf_apply, gateVec_apply x w v ![0, 0, 14] 14 rfl, gateVec_apply x w v ![0, 0, 15] 15 rfl,
    gateTail_apply x w v v168 13 b n q (h168 n), h161 n]

/-- The whole body at row `b`, lane `q`: what the block held plus the tile's term. -/
theorem body_apply (x : Vec Ideal S32x256x16 .f32) (w v : Vec Ideal S128 .f32) (xo : Vec Ideal S32x128 .f32)
    (b : Fin 32) (q : Fin 128) :
    k0_pay1 x (k0_pay3 w) v
        (k0_pay10 x (k0_pay3 w) v (k0_pay7 x (k0_pay3 w) v (k0_pay4 x w v) (k0_pay5 x w) (k0_pay6 v))
          (k0_pay8 x (k0_pay3 w)) (k0_pay9 v))
        (k0_pay11 x (k0_pay3 w)) (k0_pay12 v) xo (ix2 b q)
      = xo (ix2 b q) + tileTerm x w v b q := by
  rw [pay3_eq]
  exact pay1_apply x w v _ _ xo b q _ (fun n => fold13_apply x w v b n q) (fun n => pay11_apply x w b n q)

/-- The reset block holds the zero word everywhere. -/
theorem pay2_apply (b : Fin 32) (q : Fin 128) :
    (k0_pay2 (F := Ideal)) (ix2 b q) = Ideal.ofBits .f32 0x00000000#32 := rfl

/-- Case B (not the first tile of its row block): the block that held `xo` ends holding `xo` plus the tile's term. -/
theorem out_B (c : Dev nD) (i : grid0.Coords) (a2 : Memref sig .tc .vmem S32x256x16 .f32) (h2 : a2.IsWhole) (a3 : Memref sig .tc .vmem S128 .f32) (h3 : a3.IsWhole) (a4 : Memref sig .tc .vmem S128 .f32) (h4 : a4.IsWhole) (a5 : Memref sig .tc .vmem S32x128 .f32) (h5 : a5.IsWhole) (hc : ¬cond0_0 i)
    (x : Vec Ideal S32x256x16 .f32) (w v : Vec Ideal S128 .f32) (xo : Vec Ideal S32x128 .f32) (b : Fin 32) (q : Fin 128) :
    out0_B_3 (F := Ideal) c i a2 h2 a3 h3 a4 h4 a5 h5 hc x w v xo (ix2 b q) = xo (ix2 b q) + tileTerm x w v b q := by
  unfold out0_B_3
  rw [View.read_writes_eq_canon _ _ _ (cover0_B_3 c i a2 h2 a3 h3 a4 h4 a5 h5 hc x w v xo)]
  unfold kernelRun0_B
  dsimp only
  sl_unfold_words
  rw [View.canon_unit_zero hz2]
  simp only [View.readAt_eq_ld, h2.read_unread, h3.read_unread, h4.read_unread, h5.read_unread,
    View.ld_unit_zero (S := S32x256x16) hz3, View.ld_unit_zero (S := S128) hz1, View.ld_unit_zero (S := S32x128) hz2]
  exact body_apply x w v xo b q

/-- Case A (the first tile of a row block): the block is reset, and ends holding the zero word plus the tile's term. -/
theorem out_A (c : Dev nD) (i : grid0.Coords) (a2 : Memref sig .tc .vmem S32x256x16 .f32) (h2 : a2.IsWhole) (a3 : Memref sig .tc .vmem S128 .f32) (h3 : a3.IsWhole) (a4 : Memref sig .tc .vmem S128 .f32) (h4 : a4.IsWhole) (a5 : Memref sig .tc .vmem S32x128 .f32) (h5 : a5.IsWhole) (hc : cond0_0 i)
    (x : Vec Ideal S32x256x16 .f32) (w v : Vec Ideal S128 .f32) (b : Fin 32) (q : Fin 128) :
    out0_A_3 (F := Ideal) c i a2 h2 a3 h3 a4 h4 a5 h5 hc x w v (ix2 b q)
      = Ideal.ofBits .f32 0x00000000#32 + tileTerm x w v b q := by
  unfold out0_A_3
  rw [View.read_writes_eq_canon _ _ _ (cover0_A_3 c i a2 h2 a3 h3 a4 h4 a5 h5 hc x w v)]
  unfold kernelRun0_A
  dsimp only
  sl_unfold_words
  rw [View.canon_cons_unit_zero (S := S32x128) hz2, View.readCov_unit_zero (S := S32x128) _ hz2]
  simp only [View.readAt_eq_ld, h2.read_unread, h3.read_unread, h4.read_unread, h5.read_unread,
    View.ld_unit_zero (S := S32x256x16) hz3, View.ld_unit_zero (S := S128) hz1, View.ld_unit_zero (S := S32x128) hz2]
  exact (body_apply x w v (k0_pay2 (F := Ideal)) b q).trans (congrArg (· + tileTerm x w v b q) (pay2_apply b q))

end Cert.KernelIdeal.Body0

end
-- ==== Proof.Region0.lean ====
/-
  Region 0's result array. The grid has eight points, `t = 4·bi + ni`: `bi` picks one of the two blocks of 32 batch
  rows, `ni` one of the four tiles of 256 set elements. The output block of row block `bi` stays in place over its
  four points: it is reset at `ni = 0`, each point adds its tile's term, and it is written back after `ni = 3`. So
  after point `t` the block holds, at row `b` and lane `q`, the running value of the specification up to tile `ni`
  for batch row `32·bi + b` (induction on the point), and the two write-backs together fill the whole [64, 128] array
  with the pooled value.
-/
import proofs.«174952_j36584531427734_1_alg».proof.Proof.Body0

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Region0

open Cert.KernelIdeal Cert.KernelIdeal.Gen Cert.PoolSpec

variable (V : (c : Dev nD) → (b : Ref sig .tc) → Buf (Elt Ideal) ((c : Thread nD τ).loc b))

/-! ## The index maps and the block reads -/

/-- The block indices of the four windows at point `t`, decided once over the grid: the set-and-feature window sits
    at block `(t / 4, t % 4, 0)`, the two lane vectors are one whole block, and the result window sits at block
    `(t / 4, 0)`. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 1) = 0 ∧ win0_2.index t (0 : Fin 1) = 0
    ∧ win0_3.index t (0 : Fin 2) = t.val / 4 ∧ win0_3.index t (1 : Fin 2) = 0 :=
  (by decide +kernel : ∀ t : Fin grid0.N, _)

/-- The set-and-feature block at point `t`, at `(b, n, d)`, is the array at row `32·(t / 4) + b`, set element
    `256·(t % 4) + n`, feature `d`: a block's coordinate is its block index times the block's size plus the
    coordinate inside the block. -/
theorem xblk_apply (c : Dev nD) (t : Fin cfg0.N) (b : Fin 32) (n : Fin 256) (d : Fin 16) (r : Fin 64) (n' : Fin 1024)
    (hr : r.val = 32 * (t.val / 4) + b.val) (hn : n'.val = 256 * (t.val % 4) + n.val) :
    (iblk0 V c 0 t : Vec Ideal S32x256x16 .f32) (ix3 b n d) = (V c main_arg0 : SX.Idx → EReal) (ix3 r n' d) := by
  obtain ⟨e0, e1, e2, -⟩ := idx_facts t
  unfold iblk0
  rw [View.read_apply]
  show V c main_arg0 _ = V c main_arg0 _
  congr 1
  funext a
  apply Fin.ext
  match a with
  | ⟨0, _⟩ => show win0_0.index t 0 * 32 + 1 * b.val = r.val; rw [e0, hr]; omega
  | ⟨1, _⟩ => show win0_0.index t 1 * 256 + 1 * n.val = n'.val; rw [e1, hn]; omega
  | ⟨2, _⟩ => show win0_0.index t 2 * 16 + 1 * d.val = d.val; rw [e2]; omega

/-- The lane-weight block at any point is the whole lane-weight array. -/
theorem wblk_apply (c : Dev nD) (t : Fin cfg0.N) (q : Fin 128) :
    (iblk0 V c 1 t : Vec Ideal S128 .f32) (ix1 q) = (V c main_v3 : SL.Idx → EReal) (ix1 q) := by
  obtain ⟨-, -, -, e3, -⟩ := idx_facts t
  unfold iblk0
  rw [View.read_apply]
  show V c main_v3 _ = V c main_v3 _
  congr 1
  funext a
  apply Fin.ext
  match a with
  | ⟨0, _⟩ => show win0_1.index t 0 * 128 + 1 * q.val = q.val; rw [e3]; omega

/-- The lane-offset block at any point is the whole lane-offset array. -/
theorem vblk_apply (c : Dev nD) (t : Fin cfg0.N) (q : Fin 128) :
    (iblk0 V c 2 t : Vec Ideal S128 .f32) (ix1 q) = (V c main_arg5 : SL.Idx → EReal) (ix1 q) := by
  obtain ⟨-, -, -, -, e4, -⟩ := idx_facts t
  unfold iblk0
  rw [View.read_apply]
  show V c main_arg5 _ = V c main_arg5 _
  congr 1
  funext a
  apply Fin.ext
  match a with
  | ⟨0, _⟩ => show win0_2.index t 0 * 128 + 1 * q.val = q.val; rw [e4]; omega

/-! ## One point's term, and the running value -/

/-- One more tile: the running value after tile `k + 1` is the one after tile `k` plus the sum over tile `k + 1`. -/
theorem runTo_step (X : SX.Idx → EReal) (W B : SL.Idx → EReal) (r : Fin 64) (q : Fin 128) (k : ℕ) (h : k + 1 < 4) :
    runTo X W B r q (k + 1) = runTo X W B r q k + tileSum X W B r q ⟨k + 1, h⟩ := by
  show runTo X W B r q k + (if h : k + 1 < 4 then tileSum X W B r q ⟨k + 1, h⟩ else 0) = _
  rw [dif_pos h]

/-- What point `t` adds at row `b`, lane `q` of the output block is the specification's sum over tile `t % 4` for
    batch row `32·(t / 4) + b`: the block's 256 set elements are that tile's, and the largest of sixteen gates folded
    pairwise from the first is the largest folded from `⊥`. -/
theorem tileTerm_blk (c : Dev nD) (t : Fin cfg0.N) (b : Fin 32) (q : Fin 128) (r : Fin 64) (j : Fin 4)
    (hr : r.val = 32 * (t.val / 4) + b.val) (hj : j.val = t.val % 4) :
    Body0.tileTerm (iblk0 V c 0 t) (iblk0 V c 1 t) (iblk0 V c 2 t) b q
      = tileSum (V c main_arg0) (V c main_v3) (V c main_arg5) r q j := by
  unfold Body0.tileTerm tileSum
  refine Finset.sum_congr rfl fun n _ => ?_
  rw [nest16_eq_top16]
  unfold peak cell
  congr 1
  funext d
  rw [xblk_apply V c t b n d r (tileAt j n) hr (by show 256 * j.val + n.val = _; rw [hj]), wblk_apply, vblk_apply]

/-- At the first tile of a row block the output block is reset and then holds the running value after tile 0. -/
theorem outsAt_first (c : Dev nD) (t : Fin cfg0.N) (h0 : t.val % 4 = 0) (b : Fin 32) (q : Fin 128) (r : Fin 64)
    (hr : r.val = 32 * (t.val / 4) + b.val) :
    (outsAt0 V c t.val t.isLt : Vec Ideal S32x128 .f32) (ix2 b q)
      = runTo (V c main_arg0) (V c main_v3) (V c main_arg5) r q 0 := by
  rw [outsAt0_A V c t h0]
  refine (Body0.out_A c (grid0.coords t) (ms0_0 t) (hs0_0 t) (ms0_1 t) (hs0_1 t) (ms0_2 t) (hs0_2 t) (ms0_3 t) (hs0_3 t)
    ((hcond0_0 t).mpr h0) (iblk0 V c 0 t) (iblk0 V c 1 t) (iblk0 V c 2 t) b q).trans ?_
  rw [tileTerm_blk V c t b q r 0 hr (by rw [h0]; rfl)]
  rfl

/-- THE INVARIANT. After point `n` the output block holds, at row `b` and lane `q`, the running value up to tile
    `n % 4` of batch row `32·(n / 4) + b`. By induction on the point: a point with `n % 4 = 0` resets the block; any
    other point is in the same row block as the point before it, one tile further, and adds that tile's sum to what
    the point before left. -/
theorem outsAt_eq (c : Dev nD) (n : ℕ) : ∀ (hn : n < cfg0.N) (b : Fin 32) (q : Fin 128) (r : Fin 64),
    r.val = 32 * (n / 4) + b.val →
    (outsAt0 V c n hn : Vec Ideal S32x128 .f32) (ix2 b q)
      = runTo (V c main_arg0) (V c main_v3) (V c main_arg5) r q (n % 4) := by
  induction n with
  | zero => intro hn b q r hr; exact outsAt_first V c ⟨0, hn⟩ rfl b q r hr
  | succ k ih =>
    intro hn b q r hr
    by_cases h0 : (k + 1) % 4 = 0
    · rw [h0]; exact outsAt_first V c ⟨k + 1, hn⟩ h0 b q r hr
    · have hk : (k + 1) % 4 = k % 4 + 1 := by omega
      have hd : (k + 1) / 4 = k / 4 := by omega
      have hlt : k % 4 + 1 < 4 := by omega
      rw [outsAt0_B V c ⟨k + 1, hn⟩ h0]
      refine (Body0.out_B c (grid0.coords ⟨k + 1, hn⟩) (ms0_0 ⟨k + 1, hn⟩) (hs0_0 ⟨k + 1, hn⟩) (ms0_1 ⟨k + 1, hn⟩)
        (hs0_1 ⟨k + 1, hn⟩) (ms0_2 ⟨k + 1, hn⟩) (hs0_2 ⟨k + 1, hn⟩) (ms0_3 ⟨k + 1, hn⟩) (hs0_3 ⟨k + 1, hn⟩)
        (fun h => h0 ((hcond0_0 ⟨k + 1, hn⟩).mp h)) (iblk0 V c 0 ⟨k + 1, hn⟩) (iblk0 V c 1 ⟨k + 1, hn⟩)
        (iblk0 V c 2 ⟨k + 1, hn⟩)
        (outsAt0 V c ((⟨k + 1, hn⟩ : Fin cfg0.N).val - 1)
          (Nat.lt_of_le_of_lt (Nat.sub_le _ _) (⟨k + 1, hn⟩ : Fin cfg0.N).isLt)) b q).trans ?_
      rw [hk, runTo_step _ _ _ r q (k % 4) hlt, ← ih (Nat.lt_of_succ_lt hn) b q r (by rw [hr, hd]),
        ← tileTerm_blk V c ⟨k + 1, hn⟩ b q r ⟨k % 4 + 1, hlt⟩ hr hk.symm]
      rfl

/-! ## From the blocks to the array -/

/-- What a flushing point writes back is its block of the pooled array: such a point has `t % 4 = 3`, so the output
    block holds the running value after the last tile, which is the pooled value, and row `b` of the block is row
    `32·(t / 4) + b` of the array. -/
theorem flushed_eq (c : Dev nD) (t : Fin cfg0.N) (hf : (cfg0.win 3).flush t = true) :
    (dat0 V c).flushed 3 t
      = ((cfg0.win 3).blk t).view.read (Elt Ideal) (pool (V c main_arg0) (V c main_v3) (V c main_arg5)) := by
  have h3 : t.val % 4 = 3 := (flush0_3 t).mp hf
  have hN : cfg0.N = 8 := N_0
  have ht : t.val < 8 := hN ▸ t.isLt
  obtain ⟨-, -, -, -, -, e5, e6⟩ := idx_facts t
  show (cfg0.win 3).cut (grid0.coords t) ((dat0 V c).after 3 t) = _
  rw [after0_3]
  funext j
  obtain ⟨b, q, rfl⟩ : ∃ (b : Fin 32) (q : Fin 128), j = ix2 b q := ⟨j 0, j 1, eq_ix2 j⟩
  have hb : 32 * (t.val / 4) + b.val < 64 := by have := b.isLt; omega
  have hemb : ((cfg0.win 3).blk t).view.emb (ix2 b q)
      = (ix2 (⟨32 * (t.val / 4) + b.val, hb⟩ : Fin 64) q : SP.Idx) := by
    funext a
    apply Fin.ext
    match a with
    | ⟨0, _⟩ => show win0_3.index t 0 * 32 + 1 * b.val = 32 * (t.val / 4) + b.val; rw [e5]; omega
    | ⟨1, _⟩ => show win0_3.index t 1 * 128 + 1 * q.val = q.val; rw [e6]; omega
  show (outsAt0 V c t.val t.isLt : Vec Ideal S32x128 .f32) (ix2 b q)
    = pool (V c main_arg0) (V c main_v3) (V c main_arg5) (((cfg0.win 3).blk t).view.emb (ix2 b q))
  rw [hemb, outsAt_eq V c t.val t.isLt b q ⟨32 * (t.val / 4) + b.val, hb⟩ rfl, h3, run_last]
  rfl

/-- Every index of the result array lies in the block of a flushing point: row `r` in that of point
    `4·(r / 32) + 3`, the last tile of row block `r / 32`. -/
theorem cover (i : SP.Idx) :
    ∃ t : Fin cfg0.N, (cfg0.win 3).flush t = true ∧ i ∈ ((cfg0.win 3).blk t).view.set := by
  have hi0 : (i 0).val < 64 := (i 0).isLt
  have hi1 : (i 1).val < 128 := (i 1).isLt
  have hN : cfg0.N = 8 := N_0
  obtain ⟨t, htv⟩ : ∃ t : Fin cfg0.N, t.val = 4 * ((i 0).val / 32) + 3 := ⟨⟨_, by rw [hN]; omega⟩, rfl⟩
  obtain ⟨-, -, -, -, -, e5, e6⟩ := idx_facts t
  refine ⟨t, (flush0_3 t).mpr (by omega), ?_⟩
  show i ∈ ((View.whole main_v8).slice (win0_3.rect t)).set
  rw [View.set_slice_whole, Rect.mem_set_unit]
  intro a
  match a with
  | ⟨0, _⟩ =>
    show win0_3.index t (0 : Fin 2) * 32 ≤ (i 0).val ∧ (i 0).val < win0_3.index t (0 : Fin 2) * 32 + 32
    rw [e5]; omega
  | ⟨1, _⟩ =>
    show win0_3.index t (1 : Fin 2) * 128 ≤ (i 1).val ∧ (i 1).val < win0_3.index t (1 : Fin 2) * 128 + 128
    rw [e6]; omega

/-- Whatever the region finds in its buffers, it leaves in its result array the pooled value of the three arrays it
    reads: the set-and-feature array `main_arg0`, the lane weights `main_v3` and the lane offsets `main_arg5`. -/
theorem final0 (c : Dev nD) :
    (dat0 (F := Ideal) V c).arrAt 3 cfg0.N = pool (V c main_arg0) (V c main_v3) (V c main_arg5) :=
  (dat0 V c).arrAt_eq_of_cover 3 (pool (V c main_arg0) (V c main_v3) (V c main_arg5))
    (fun t hf => flushed_eq V c t hf) (fun i => cover i)

end Cert.KernelIdeal.Region0

end
-- ==== Proof.Body1.lean ====
/-
  Region 1's body, read as values at the extended reals. One grid point holds a block of 32 batch rows by 256 set
  elements by 16 features, the 128 lane weights `w` and the 128 lane offsets `v`. For each feature `d` the body
  forms the gate `logistic (x[b, n, d] · w[q] + v[q])`, keeps the running maximum over `d` folded pairwise from the
  first feature, sums the maxima over the block's 256 set elements, and adds the sum into the output block.
  At the first tile of a row block (case A) the output block is first set to the zero word; at the others (case B) it
  holds what the previous point left.
-/
import proofs.«174952_j36584531427734_1_alg».proof.Proof.Gen.KernelIdeal.Frame
import proofs.«174952_j36584531427734_1_alg».proof.Proof.PoolSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open scoped BigOperators

namespace Cert.KernelIdeal.Body1

open Cert.KernelIdeal Cert.KernelIdeal.Gen Cert.PoolSpec

/-- What one grid point adds at row `b`, lane `q` of the output block: the sum over the block's 256 set elements of
    the largest of the sixteen gates. -/
def tileTerm (x : Vec Ideal S32x256x16 .f32) (w v : Vec Ideal S128 .f32) (b : Fin 32) (q : Fin 128) : EReal :=
  ∑ n : Fin 256, nest16 (fun d => gate (x (ix3 b n d)) (w (ix1 q)) (v (ix1 q)))

/-- The zero offsets of each rank, as the constant function. -/
theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The gate of feature `d` at batch row `b`, set element `n`, lane `q` of one block. -/
def gateAt (x : Vec Ideal S32x256x16 .f32) (w v : Vec Ideal S128 .f32) (b : Fin 32) (n : Fin 256) (q : Fin 128)
    (d : Fin 16) : EReal :=
  gate (x (ix3 b n d)) (w (ix1 q)) (v (ix1 q))

/-- Feature `d` of the block, laid along the lanes: at `(b, n, q)` it is `x[b, n, d]`. -/
theorem feat_apply (x : FVec Ideal S32x256x16 .f32) (off : Fin 3 → ℕ) (d : Fin 16) (hoff : off = ![0, 0, d.val])
    (h : S32x256x16.Slices off S32x256x1) (h1 : S32x256x1.ShapeCasts S32x256) (h2 : S32x256.ShapeCasts S32x256x1)
    (h3 : S32x256x1.Broadcasts S32x256x128) (b : Fin 32) (n : Fin 256) (q : Fin 128) :
    broadcastTo S32x256x128 (shapeCast S32x256x1 (shapeCast S32x256 (extractStridedSlice S32x256x1 off x h) h1) h2) h3
      (ix3 b n q) = x (ix3 b n d) := by
  subst hoff
  rw [shapeCast_shapeCast]
  refine (broadcastTo_apply _ h3 (ix3 b n q) (ix3 b n (0 : Fin 1)) ?_).trans ?_
  · intro a
    match a with
    | ⟨0, _⟩ => rfl
    | ⟨1, _⟩ => rfl
    | ⟨2, _⟩ => rfl
  refine extractStridedSlice_apply _ x h (ix3 b n (0 : Fin 1)) (ix3 b n d) ?_
  intro a
  match a with
  | ⟨0, _⟩ => show b.val = 0 + b.val; omega
  | ⟨1, _⟩ => show n.val = 0 + n.val; omega
  | ⟨2, _⟩ => show d.val = d.val + 0; omega

/-- A lane vector laid along the rows and the set elements: at `(b, n, q)` it is its entry `q`. -/
theorem lane_apply (u : FVec Ideal S128 .f32) (h1 : S128.ShapeCasts S1x1x128) (h2 : S1x1x128.Broadcasts S32x256x128)
    (b : Fin 32) (n : Fin 256) (q : Fin 128) :
    broadcastTo S32x256x128 (shapeCast S1x1x128 u h1) h2 (ix3 b n q) = u (ix1 q) := by
  refine (broadcastTo_apply _ h2 (ix3 b n q) (ix3 (0 : Fin 1) (0 : Fin 1) q) ?_).trans ?_
  · intro a
    match a with
    | ⟨0, _⟩ => rfl
    | ⟨1, _⟩ => rfl
    | ⟨2, _⟩ => rfl
  refine shapeCast_apply u h1 (ix3 (0 : Fin 1) (0 : Fin 1) q) (ix1 q) ?_
  rw [Shape.rowMajor_val_one, Shape.rowMajor_val_three]
  show q.val = (0 * 1 + 0) * 128 + q.val
  omega

/-- The sum over the set axis, read at row `b`, lane `q`. -/
theorem setSum_apply (src : FVec Ideal S32x256x128 .f32) (h : S32x256x128.Reduces [1] S32x128) (hφ : FKind.Formats .f32)
    (hacc : (0x00000000#32 : BitVec 32) = FKind.add.neutral .f32 hφ) (b : Fin 32) (q : Fin 128) :
    multiReduction (F := Ideal) .add [1] S32x128 src 0x00000000#32 h hφ hacc (ix2 b q) = ∑ n : Fin 256, src (ix3 b n q) := by
  refine (Ideal.multiReduction_add_single src 0x00000000#32 h hφ hacc (ix2 b q)).trans ?_
  refine Finset.sum_congr rfl fun n _ => congrArg src ?_
  funext a
  match a with
  | ⟨0, _⟩ => rfl
  | ⟨1, _⟩ => rfl
  | ⟨2, _⟩ => rfl

/-- The logistic of a vector, read at an index. -/
theorem logistic_apply {s : Shape} {φ : FTy} (a : FVec Ideal s φ) (i : s.Idx) : logistic a i = Ideal.logistic (a i) := rfl

/-- One whole gate vector — feature `d` times the lane weights plus the lane offsets, through the logistic — at `(b, n, q)`. -/
theorem gateVec_apply (x : FVec Ideal S32x256x16 .f32) (w v : FVec Ideal S128 .f32) (off : Fin 3 → ℕ) (d : Fin 16)
    (hoff : off = ![0, 0, d.val]) (h : S32x256x16.Slices off S32x256x1) (h1 : S32x256x1.ShapeCasts S32x256)
    (h2 : S32x256.ShapeCasts S32x256x1) (h3 : S32x256x1.Broadcasts S32x256x128) (h4 : S128.ShapeCasts S1x1x128)
    (h5 : S1x1x128.Broadcasts S32x256x128) (h6 : S128.ShapeCasts S1x1x128) (h7 : S1x1x128.Broadcasts S32x256x128)
    (b : Fin 32) (n : Fin 256) (q : Fin 128) :
    logistic (addf (mulf (broadcastTo S32x256x128 (shapeCast S32x256x1 (shapeCast S32x256
        (extractStridedSlice S32x256x1 off x h) h1) h2) h3) (broadcastTo S32x256x128 (shapeCast S1x1x128 w h4) h5))
        (broadcastTo S32x256x128 (shapeCast S1x1x128 v h6) h7)) (ix3 b n q) = gateAt x w v b n q d := by
  rw [logistic_apply, addf_apply, mulf_apply, feat_apply x off d hoff h h1 h2 h3 b n q, lane_apply w h4 h5 b n q,
    lane_apply v h6 h7 b n q]
  rfl

/-- A gate whose product was formed earlier: the logistic of the product plus the lane offsets, at `(b, n, q)`. -/
theorem gateTail_apply (x : FVec Ideal S32x256x16 .f32) (w v : FVec Ideal S128 .f32) (p : FVec Ideal S32x256x128 .f32)
    (d : Fin 16) (b : Fin 32) (n : Fin 256) (q : Fin 128) (hp : p (ix3 b n q) = x (ix3 b n d) * w (ix1 q))
    (h6 : S128.ShapeCasts S1x1x128) (h7 : S1x1x128.Broadcasts S32x256x128) :
    logistic (addf p (broadcastTo S32x256x128 (shapeCast S1x1x128 v h6) h7)) (ix3 b n q) = gateAt x w v b n q d := by
  rw [logistic_apply, addf_apply, hp, lane_apply v h6 h7 b n q]
  rfl

/-- A product formed ahead of its gate: feature `d` times the lane weights, at `(b, n, q)`. -/
theorem prodVec_apply (x : FVec Ideal S32x256x16 .f32) (w : FVec Ideal S128 .f32) (off : Fin 3 → ℕ) (d : Fin 16)
    (hoff : off = ![0, 0, d.val]) (h : S32x256x16.Slices off S32x256x1) (h1 : S32x256x1.ShapeCasts S32x256)
    (h2 : S32x256.ShapeCasts S32x256x1) (h3 : S32x256x1.Broadcasts S32x256x128) (h4 : S128.ShapeCasts S1x1x128)
    (h5 : S1x1x128.Broadcasts S32x256x128) (b : Fin 32) (n : Fin 256) (q : Fin 128) :
    mulf (broadcastTo S32x256x128 (shapeCast S32x256x1 (shapeCast S32x256
        (extractStridedSlice S32x256x1 off x h) h1) h2) h3) (broadcastTo S32x256x128 (shapeCast S1x1x128 w h4) h5)
      (ix3 b n q) = x (ix3 b n d) * w (ix1 q) := by
  rw [mulf_apply, feat_apply x off d hoff h h1 h2 h3 b n q, lane_apply w h4 h5 b n q]

/-- The identity cast of the lane weights. -/
theorem pay3_eq (w : Vec Ideal S128 .f32) : k1_pay3 w = w := by
  unfold k1_pay3
  exact shapeCast_self w _

/-- The first three gates, folded from the first. -/
theorem pay4_apply (x : Vec Ideal S32x256x16 .f32) (w v : Vec Ideal S128 .f32) (b : Fin 32) (n : Fin 256) (q : Fin 128) :
    k1_pay4 x w v (ix3 b n q) = max (max (gateAt x w v b n q 0) (gateAt x w v b n q 1)) (gateAt x w v b n q 2) := by
  unfold k1_pay4
  rw [pay3_eq]
  simp only [maximumf_apply, gateVec_apply x w v ![0, 0, 0] 0 rfl, gateVec_apply x w v ![0, 0, 1] 1 rfl,
    gateVec_apply x w v ![0, 0, 2] 2 rfl]

/-- The product of feature 3 with the lane weights. -/
theorem pay5_apply (x : Vec Ideal S32x256x16 .f32) (w : Vec Ideal S128 .f32) (b : Fin 32) (n : Fin 256) (q : Fin 128) :
    k1_pay5 x w (ix3 b n q) = x (ix3 b n 3) * w (ix1 q) := by
  unfold k1_pay5
  rw [pay3_eq]
  exact prodVec_apply x w ![0, 0, 3] 3 rfl _ _ _ _ _ _ b n q

/-- Gates 3 to 7 folded onto what came before; the product of gate 3 arrives formed. -/
theorem pay7_apply (x : Vec Ideal S32x256x16 .f32) (w v : Vec Ideal S128 .f32) (v41 v48 : FVec Ideal S32x256x128 .f32)
    (b : Fin 32) (n : Fin 256) (q : Fin 128) (A : EReal) (h41 : v41 (ix3 b n q) = A)
    (h48 : v48 (ix3 b n q) = x (ix3 b n 3) * w (ix1 q)) :
    k1_pay7 x w v v41 v48 (k1_pay6 v) (ix3 b n q)
      = max (max (max (max (max A (gateAt x w v b n q 3)) (gateAt x w v b n q 4)) (gateAt x w v b n q 5))
          (gateAt x w v b n q 6)) (gateAt x w v b n q 7) := by
  unfold k1_pay7 k1_pay6
  simp only [maximumf_apply, gateVec_apply x w v ![0, 0, 4] 4 rfl, gateVec_apply x w v ![0, 0, 5] 5 rfl,
    gateVec_apply x w v ![0, 0, 6] 6 rfl, gateVec_apply x w v ![0, 0, 7] 7 rfl,
    gateTail_apply x w v v48 3 b n q h48, h41]

/-- The product of feature 8 with the lane weights. -/
theorem pay8_apply (x : Vec Ideal S32x256x16 .f32) (w : Vec Ideal S128 .f32) (b : Fin 32) (n : Fin 256) (q : Fin 128) :
    k1_pay8 x w (ix3 b n q) = x (ix3 b n 8) * w (ix1 q) := by
  unfold k1_pay8
  exact prodVec_apply x w ![0, 0, 8] 8 rfl _ _ _ _ _ _ b n q

/-- Gates 8 to 12 folded onto what came before; the product of gate 8 arrives formed. -/
theorem pay10_apply (x : Vec Ideal S32x256x16 .f32) (w v : Vec Ideal S128 .f32) (v101 v108 : FVec Ideal S32x256x128 .f32)
    (b : Fin 32) (n : Fin 256) (q : Fin 128) (A : EReal) (h101 : v101 (ix3 b n q) = A)
    (h108 : v108 (ix3 b n q) = x (ix3 b n 8) * w (ix1 q)) :
    k1_pay10 x w v v101 v108 (k1_pay9 v) (ix3 b n q)
      = max (max (max (max (max A (gateAt x w v b n q 8)) (gateAt x w v b n q 9)) (gateAt x w v b n q 10))
          (gateAt x w v b n q 11)) (gateAt x w v b n q 12) := by
  unfold k1_pay10 k1_pay9
  simp only [maximumf_apply, gateVec_apply x w v ![0, 0, 9] 9 rfl, gateVec_apply x w v ![0, 0, 10] 10 rfl,
    gateVec_apply x w v ![0, 0, 11] 11 rfl, gateVec_apply x w v ![0, 0, 12] 12 rfl,
    gateTail_apply x w v v108 8 b n q h108, h101]

/-- The product of feature 13 with the lane weights. -/
theorem pay11_apply (x : Vec Ideal S32x256x16 .f32) (w : Vec Ideal S128 .f32) (b : Fin 32) (n : Fin 256) (q : Fin 128) :
    k1_pay11 x w (ix3 b n q) = x (ix3 b n 13) * w (ix1 q) := by
  unfold k1_pay11
  exact prodVec_apply x w ![0, 0, 13] 13 rfl _ _ _ _ _ _ b n q

/-- The first thirteen gates, folded from the first. -/
theorem fold13_apply (x : Vec Ideal S32x256x16 .f32) (w v : Vec Ideal S128 .f32) (b : Fin 32) (n : Fin 256) (q : Fin 128) :
    k1_pay10 x w v (k1_pay7 x w v (k1_pay4 x w v) (k1_pay5 x w) (k1_pay6 v)) (k1_pay8 x w) (k1_pay9 v) (ix3 b n q)
      = max (max (max (max (max (max (max (max (max (max (max (max (gateAt x w v b n q 0) (gateAt x w v b n q 1))
          (gateAt x w v b n q 2)) (gateAt x w v b n q 3)) (gateAt x w v b n q 4)) (gateAt x w v b n q 5))
          (gateAt x w v b n q 6)) (gateAt x w v b n q 7)) (gateAt x w v b n q 8)) (gateAt x w v b n q 9))
          (gateAt x w v b n q 10)) (gateAt x w v b n q 11)) (gateAt x w v b n q 12) :=
  pay10_apply x w v _ _ b n q _
    (pay7_apply x w v _ _ b n q _ (pay4_apply x w v b n q) (pay5_apply x w b n q)) (pay8_apply x w b n q)

/-- The last three gates folded on, the sum over the set axis, and the sum added to the block. -/
theorem pay1_apply (x : Vec Ideal S32x256x16 .f32) (w v : Vec Ideal S128 .f32) (v161 v168 : FVec Ideal S32x256x128 .f32)
    (xo : Vec Ideal S32x128 .f32) (b : Fin 32) (q : Fin 128) (A : Fin 256 → EReal)
    (h161 : ∀ n, v161 (ix3 b n q) = A n) (h168 : ∀ n, v168 (ix3 b n q) = x (ix3 b n 13) * w (ix1 q)) :
    k1_pay1 x w v v161 v168 (k1_pay12 v) xo (ix2 b q)
      = xo (ix2 b q) + ∑ n : Fin 256, max (max (max (A n) (gateAt x w v b n q 13)) (gateAt x w v b n q 14))
          (gateAt x w v b n q 15) := by
  unfold k1_pay1 k1_pay12
  refine (addf_apply _ _ _).trans ?_
  refine congrArg₂ (· + ·) (congrFun (shapeCast_self xo _) _) ?_
  refine (setSum_apply _ _ _ _ b q).trans ?_
  refine Finset.sum_congr rfl fun n _ => ?_
  simp only [maximumf_apply, gateVec_apply x w v ![0, 0, 14] 14 rfl, gateVec_apply x w v ![0, 0, 15] 15 rfl,
    gateTail_apply x w v v168 13 b n q (h168 n), h161 n]

/-- The whole body at row `b`, lane `q`: what the block held plus the tile's term. -/
theorem body_apply (x : Vec Ideal S32x256x16 .f32) (w v : Vec Ideal S128 .f32) (xo : Vec Ideal S32x128 .f32)
    (b : Fin 32) (q : Fin 128) :
    k1_pay1 x (k1_pay3 w) v
        (k1_pay10 x (k1_pay3 w) v (k1_pay7 x (k1_pay3 w) v (k1_pay4 x w v) (k1_pay5 x w) (k1_pay6 v))
          (k1_pay8 x (k1_pay3 w)) (k1_pay9 v))
        (k1_pay11 x (k1_pay3 w)) (k1_pay12 v) xo (ix2 b q)
      = xo (ix2 b q) + tileTerm x w v b q := by
  rw [pay3_eq]
  exact pay1_apply x w v _ _ xo b q _ (fun n => fold13_apply x w v b n q) (fun n => pay11_apply x w b n q)

/-- The reset block holds the zero word everywhere. -/
theorem pay2_apply (b : Fin 32) (q : Fin 128) :
    (k1_pay2 (F := Ideal)) (ix2 b q) = Ideal.ofBits .f32 0x00000000#32 := rfl

/-- Case B (not the first tile of its row block): the block that held `xo` ends holding `xo` plus the tile's term. -/
theorem out_B (c : Dev nD) (i : grid1.Coords) (a2 : Memref sig .tc .vmem S32x256x16 .f32) (h2 : a2.IsWhole) (a3 : Memref sig .tc .vmem S128 .f32) (h3 : a3.IsWhole) (a4 : Memref sig .tc .vmem S128 .f32) (h4 : a4.IsWhole) (a5 : Memref sig .tc .vmem S32x128 .f32) (h5 : a5.IsWhole) (hc : ¬cond1_0 i)
    (x : Vec Ideal S32x256x16 .f32) (w v : Vec Ideal S128 .f32) (xo : Vec Ideal S32x128 .f32) (b : Fin 32) (q : Fin 128) :
    out1_B_3 (F := Ideal) c i a2 h2 a3 h3 a4 h4 a5 h5 hc x w v xo (ix2 b q) = xo (ix2 b q) + tileTerm x w v b q := by
  unfold out1_B_3
  rw [View.read_writes_eq_canon _ _ _ (cover1_B_3 c i a2 h2 a3 h3 a4 h4 a5 h5 hc x w v xo)]
  unfold kernelRun1_B
  dsimp only
  sl_unfold_words
  rw [View.canon_unit_zero hz2]
  simp only [View.readAt_eq_ld, h2.read_unread, h3.read_unread, h4.read_unread, h5.read_unread,
    View.ld_unit_zero (S := S32x256x16) hz3, View.ld_unit_zero (S := S128) hz1, View.ld_unit_zero (S := S32x128) hz2]
  exact body_apply x w v xo b q

/-- Case A (the first tile of a row block): the block is reset, and ends holding the zero word plus the tile's term. -/
theorem out_A (c : Dev nD) (i : grid1.Coords) (a2 : Memref sig .tc .vmem S32x256x16 .f32) (h2 : a2.IsWhole) (a3 : Memref sig .tc .vmem S128 .f32) (h3 : a3.IsWhole) (a4 : Memref sig .tc .vmem S128 .f32) (h4 : a4.IsWhole) (a5 : Memref sig .tc .vmem S32x128 .f32) (h5 : a5.IsWhole) (hc : cond1_0 i)
    (x : Vec Ideal S32x256x16 .f32) (w v : Vec Ideal S128 .f32) (b : Fin 32) (q : Fin 128) :
    out1_A_3 (F := Ideal) c i a2 h2 a3 h3 a4 h4 a5 h5 hc x w v (ix2 b q)
      = Ideal.ofBits .f32 0x00000000#32 + tileTerm x w v b q := by
  unfold out1_A_3
  rw [View.read_writes_eq_canon _ _ _ (cover1_A_3 c i a2 h2 a3 h3 a4 h4 a5 h5 hc x w v)]
  unfold kernelRun1_A
  dsimp only
  sl_unfold_words
  rw [View.canon_cons_unit_zero (S := S32x128) hz2, View.readCov_unit_zero (S := S32x128) _ hz2]
  simp only [View.readAt_eq_ld, h2.read_unread, h3.read_unread, h4.read_unread, h5.read_unread,
    View.ld_unit_zero (S := S32x256x16) hz3, View.ld_unit_zero (S := S128) hz1, View.ld_unit_zero (S := S32x128) hz2]
  exact (body_apply x w v (k1_pay2 (F := Ideal)) b q).trans (congrArg (· + tileTerm x w v b q) (pay2_apply b q))

end Cert.KernelIdeal.Body1

end
-- ==== Proof.Region1.lean ====
/-
  Region 1's result array. The grid has eight points, `t = 4·bi + ni`: `bi` picks one of the two blocks of 32 batch
  rows, `ni` one of the four tiles of 256 set elements. The output block of row block `bi` stays in place over its
  four points: it is reset at `ni = 0`, each point adds its tile's term, and it is written back after `ni = 3`. So
  after point `t` the block holds, at row `b` and lane `q`, the running value of the specification up to tile `ni`
  for batch row `32·bi + b` (induction on the point), and the two write-backs together fill the whole [64, 128] array
  with the pooled value.
-/
import proofs.«174952_j36584531427734_1_alg».proof.Proof.Body1

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Region1

open Cert.KernelIdeal Cert.KernelIdeal.Gen Cert.PoolSpec

variable (V : (c : Dev nD) → (b : Ref sig .tc) → Buf (Elt Ideal) ((c : Thread nD τ).loc b))

/-! ## The index maps and the block reads -/

/-- The block indices of the four windows at point `t`, decided once over the grid: the set-and-feature window sits
    at block `(t / 4, t % 4, 0)`, the two lane vectors are one whole block, and the result window sits at block
    `(t / 4, 0)`. -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 1) = 0 ∧ win1_2.index t (0 : Fin 1) = 0
    ∧ win1_3.index t (0 : Fin 2) = t.val / 4 ∧ win1_3.index t (1 : Fin 2) = 0 :=
  (by decide +kernel : ∀ t : Fin grid1.N, _)

/-- The set-and-feature block at point `t`, at `(b, n, d)`, is the array at row `32·(t / 4) + b`, set element
    `256·(t % 4) + n`, feature `d`: a block's coordinate is its block index times the block's size plus the
    coordinate inside the block. -/
theorem xblk_apply (c : Dev nD) (t : Fin cfg1.N) (b : Fin 32) (n : Fin 256) (d : Fin 16) (r : Fin 64) (n' : Fin 1024)
    (hr : r.val = 32 * (t.val / 4) + b.val) (hn : n'.val = 256 * (t.val % 4) + n.val) :
    (iblk1 V c 0 t : Vec Ideal S32x256x16 .f32) (ix3 b n d) = (V c main_arg1 : SX.Idx → EReal) (ix3 r n' d) := by
  obtain ⟨e0, e1, e2, -⟩ := idx_facts t
  unfold iblk1
  rw [View.read_apply]
  show V c main_arg1 _ = V c main_arg1 _
  congr 1
  funext a
  apply Fin.ext
  match a with
  | ⟨0, _⟩ => show win1_0.index t 0 * 32 + 1 * b.val = r.val; rw [e0, hr]; omega
  | ⟨1, _⟩ => show win1_0.index t 1 * 256 + 1 * n.val = n'.val; rw [e1, hn]; omega
  | ⟨2, _⟩ => show win1_0.index t 2 * 16 + 1 * d.val = d.val; rw [e2]; omega

/-- The lane-weight block at any point is the whole lane-weight array. -/
theorem wblk_apply (c : Dev nD) (t : Fin cfg1.N) (q : Fin 128) :
    (iblk1 V c 1 t : Vec Ideal S128 .f32) (ix1 q) = (V c main_v7 : SL.Idx → EReal) (ix1 q) := by
  obtain ⟨-, -, -, e3, -⟩ := idx_facts t
  unfold iblk1
  rw [View.read_apply]
  show V c main_v7 _ = V c main_v7 _
  congr 1
  funext a
  apply Fin.ext
  match a with
  | ⟨0, _⟩ => show win1_1.index t 0 * 128 + 1 * q.val = q.val; rw [e3]; omega

/-- The lane-offset block at any point is the whole lane-offset array. -/
theorem vblk_apply (c : Dev nD) (t : Fin cfg1.N) (q : Fin 128) :
    (iblk1 V c 2 t : Vec Ideal S128 .f32) (ix1 q) = (V c main_arg9 : SL.Idx → EReal) (ix1 q) := by
  obtain ⟨-, -, -, -, e4, -⟩ := idx_facts t
  unfold iblk1
  rw [View.read_apply]
  show V c main_arg9 _ = V c main_arg9 _
  congr 1
  funext a
  apply Fin.ext
  match a with
  | ⟨0, _⟩ => show win1_2.index t 0 * 128 + 1 * q.val = q.val; rw [e4]; omega

/-! ## One point's term, and the running value -/

/-- One more tile: the running value after tile `k + 1` is the one after tile `k` plus the sum over tile `k + 1`. -/
theorem runTo_step (X : SX.Idx → EReal) (W B : SL.Idx → EReal) (r : Fin 64) (q : Fin 128) (k : ℕ) (h : k + 1 < 4) :
    runTo X W B r q (k + 1) = runTo X W B r q k + tileSum X W B r q ⟨k + 1, h⟩ := by
  show runTo X W B r q k + (if h : k + 1 < 4 then tileSum X W B r q ⟨k + 1, h⟩ else 0) = _
  rw [dif_pos h]

/-- What point `t` adds at row `b`, lane `q` of the output block is the specification's sum over tile `t % 4` for
    batch row `32·(t / 4) + b`: the block's 256 set elements are that tile's, and the largest of sixteen gates folded
    pairwise from the first is the largest folded from `⊥`. -/
theorem tileTerm_blk (c : Dev nD) (t : Fin cfg1.N) (b : Fin 32) (q : Fin 128) (r : Fin 64) (j : Fin 4)
    (hr : r.val = 32 * (t.val / 4) + b.val) (hj : j.val = t.val % 4) :
    Body1.tileTerm (iblk1 V c 0 t) (iblk1 V c 1 t) (iblk1 V c 2 t) b q
      = tileSum (V c main_arg1) (V c main_v7) (V c main_arg9) r q j := by
  unfold Body1.tileTerm tileSum
  refine Finset.sum_congr rfl fun n _ => ?_
  rw [nest16_eq_top16]
  unfold peak cell
  congr 1
  funext d
  rw [xblk_apply V c t b n d r (tileAt j n) hr (by show 256 * j.val + n.val = _; rw [hj]), wblk_apply, vblk_apply]

/-- At the first tile of a row block the output block is reset and then holds the running value after tile 0. -/
theorem outsAt_first (c : Dev nD) (t : Fin cfg1.N) (h0 : t.val % 4 = 0) (b : Fin 32) (q : Fin 128) (r : Fin 64)
    (hr : r.val = 32 * (t.val / 4) + b.val) :
    (outsAt1 V c t.val t.isLt : Vec Ideal S32x128 .f32) (ix2 b q)
      = runTo (V c main_arg1) (V c main_v7) (V c main_arg9) r q 0 := by
  rw [outsAt1_A V c t h0]
  refine (Body1.out_A c (grid1.coords t) (ms1_0 t) (hs1_0 t) (ms1_1 t) (hs1_1 t) (ms1_2 t) (hs1_2 t) (ms1_3 t) (hs1_3 t)
    ((hcond1_0 t).mpr h0) (iblk1 V c 0 t) (iblk1 V c 1 t) (iblk1 V c 2 t) b q).trans ?_
  rw [tileTerm_blk V c t b q r 0 hr (by rw [h0]; rfl)]
  rfl

/-- THE INVARIANT. After point `n` the output block holds, at row `b` and lane `q`, the running value up to tile
    `n % 4` of batch row `32·(n / 4) + b`. By induction on the point: a point with `n % 4 = 0` resets the block; any
    other point is in the same row block as the point before it, one tile further, and adds that tile's sum to what
    the point before left. -/
theorem outsAt_eq (c : Dev nD) (n : ℕ) : ∀ (hn : n < cfg1.N) (b : Fin 32) (q : Fin 128) (r : Fin 64),
    r.val = 32 * (n / 4) + b.val →
    (outsAt1 V c n hn : Vec Ideal S32x128 .f32) (ix2 b q)
      = runTo (V c main_arg1) (V c main_v7) (V c main_arg9) r q (n % 4) := by
  induction n with
  | zero => intro hn b q r hr; exact outsAt_first V c ⟨0, hn⟩ rfl b q r hr
  | succ k ih =>
    intro hn b q r hr
    by_cases h0 : (k + 1) % 4 = 0
    · rw [h0]; exact outsAt_first V c ⟨k + 1, hn⟩ h0 b q r hr
    · have hk : (k + 1) % 4 = k % 4 + 1 := by omega
      have hd : (k + 1) / 4 = k / 4 := by omega
      have hlt : k % 4 + 1 < 4 := by omega
      rw [outsAt1_B V c ⟨k + 1, hn⟩ h0]
      refine (Body1.out_B c (grid1.coords ⟨k + 1, hn⟩) (ms1_0 ⟨k + 1, hn⟩) (hs1_0 ⟨k + 1, hn⟩) (ms1_1 ⟨k + 1, hn⟩)
        (hs1_1 ⟨k + 1, hn⟩) (ms1_2 ⟨k + 1, hn⟩) (hs1_2 ⟨k + 1, hn⟩) (ms1_3 ⟨k + 1, hn⟩) (hs1_3 ⟨k + 1, hn⟩)
        (fun h => h0 ((hcond1_0 ⟨k + 1, hn⟩).mp h)) (iblk1 V c 0 ⟨k + 1, hn⟩) (iblk1 V c 1 ⟨k + 1, hn⟩)
        (iblk1 V c 2 ⟨k + 1, hn⟩)
        (outsAt1 V c ((⟨k + 1, hn⟩ : Fin cfg1.N).val - 1)
          (Nat.lt_of_le_of_lt (Nat.sub_le _ _) (⟨k + 1, hn⟩ : Fin cfg1.N).isLt)) b q).trans ?_
      rw [hk, runTo_step _ _ _ r q (k % 4) hlt, ← ih (Nat.lt_of_succ_lt hn) b q r (by rw [hr, hd]),
        ← tileTerm_blk V c ⟨k + 1, hn⟩ b q r ⟨k % 4 + 1, hlt⟩ hr hk.symm]
      rfl

/-! ## From the blocks to the array -/

/-- What a flushing point writes back is its block of the pooled array: such a point has `t % 4 = 3`, so the output
    block holds the running value after the last tile, which is the pooled value, and row `b` of the block is row
    `32·(t / 4) + b` of the array. -/
theorem flushed_eq (c : Dev nD) (t : Fin cfg1.N) (hf : (cfg1.win 3).flush t = true) :
    (dat1 V c).flushed 3 t
      = ((cfg1.win 3).blk t).view.read (Elt Ideal) (pool (V c main_arg1) (V c main_v7) (V c main_arg9)) := by
  have h3 : t.val % 4 = 3 := (flush1_3 t).mp hf
  have hN : cfg1.N = 8 := N_1
  have ht : t.val < 8 := hN ▸ t.isLt
  obtain ⟨-, -, -, -, -, e5, e6⟩ := idx_facts t
  show (cfg1.win 3).cut (grid1.coords t) ((dat1 V c).after 3 t) = _
  rw [after1_3]
  funext j
  obtain ⟨b, q, rfl⟩ : ∃ (b : Fin 32) (q : Fin 128), j = ix2 b q := ⟨j 0, j 1, eq_ix2 j⟩
  have hb : 32 * (t.val / 4) + b.val < 64 := by have := b.isLt; omega
  have hemb : ((cfg1.win 3).blk t).view.emb (ix2 b q)
      = (ix2 (⟨32 * (t.val / 4) + b.val, hb⟩ : Fin 64) q : SP.Idx) := by
    funext a
    apply Fin.ext
    match a with
    | ⟨0, _⟩ => show win1_3.index t 0 * 32 + 1 * b.val = 32 * (t.val / 4) + b.val; rw [e5]; omega
    | ⟨1, _⟩ => show win1_3.index t 1 * 128 + 1 * q.val = q.val; rw [e6]; omega
  show (outsAt1 V c t.val t.isLt : Vec Ideal S32x128 .f32) (ix2 b q)
    = pool (V c main_arg1) (V c main_v7) (V c main_arg9) (((cfg1.win 3).blk t).view.emb (ix2 b q))
  rw [hemb, outsAt_eq V c t.val t.isLt b q ⟨32 * (t.val / 4) + b.val, hb⟩ rfl, h3, run_last]
  rfl

/-- Every index of the result array lies in the block of a flushing point: row `r` in that of point
    `4·(r / 32) + 3`, the last tile of row block `r / 32`. -/
theorem cover (i : SP.Idx) :
    ∃ t : Fin cfg1.N, (cfg1.win 3).flush t = true ∧ i ∈ ((cfg1.win 3).blk t).view.set := by
  have hi0 : (i 0).val < 64 := (i 0).isLt
  have hi1 : (i 1).val < 128 := (i 1).isLt
  have hN : cfg1.N = 8 := N_1
  obtain ⟨t, htv⟩ : ∃ t : Fin cfg1.N, t.val = 4 * ((i 0).val / 32) + 3 := ⟨⟨_, by rw [hN]; omega⟩, rfl⟩
  obtain ⟨-, -, -, -, -, e5, e6⟩ := idx_facts t
  refine ⟨t, (flush1_3 t).mpr (by omega), ?_⟩
  show i ∈ ((View.whole main_v9).slice (win1_3.rect t)).set
  rw [View.set_slice_whole, Rect.mem_set_unit]
  intro a
  match a with
  | ⟨0, _⟩ =>
    show win1_3.index t (0 : Fin 2) * 32 ≤ (i 0).val ∧ (i 0).val < win1_3.index t (0 : Fin 2) * 32 + 32
    rw [e5]; omega
  | ⟨1, _⟩ =>
    show win1_3.index t (1 : Fin 2) * 128 ≤ (i 1).val ∧ (i 1).val < win1_3.index t (1 : Fin 2) * 128 + 128
    rw [e6]; omega

/-- Whatever the region finds in its buffers, it leaves in its result array the pooled value of the three arrays it
    reads: the set-and-feature array `main_arg1`, the lane weights `main_v7` and the lane offsets `main_arg9`. -/
theorem final1 (c : Dev nD) :
    (dat1 (F := Ideal) V c).arrAt 3 cfg1.N = pool (V c main_arg1) (V c main_v7) (V c main_arg9) :=
  (dat1 V c).arrAt_eq_of_cover 3 (pool (V c main_arg1) (V c main_v7) (V c main_arg9))
    (fun t hf => flushed_eq V c t hf) (fun i => cover i)

end Cert.KernelIdeal.Region1

end
-- ==== Proof.HostFns.lean ====
/-
  The two host computations that the kernel's program and the reference share word for word, each as ONE function of
  its inputs, at any float family.

  * `wOf U A P`: the projection weights. `U @ A` is a batch of sixteen [8, 1] × [1, 32] products, re-laid as a
    [128, 32] matrix, multiplied by the column `P` and re-laid as a vector of 128 lanes.
  * `tailOf p₀ p₁ W_h C_w C_b`: the two pooled arrays joined along the lanes into [64, 256], multiplied by the
    transpose of `W_h`, passed through `1 / (1 + e^(−·))`, multiplied by the transpose of `C_w`, and the bias row
    added to every row.

  Both programs apply exactly these operations to their pooled arrays, so the value proof never opens them: it shows
  the pooled arrays equal and applies the same function to both.
-/
import proofs.«174952_j36584531427734_1_alg».proof.KernelIdeal
import proofs.«174952_j36584531427734_1_alg».proof.Proof.Gen.KernelIdeal

noncomputable section

namespace Cert.KernelIdeal.HostFns

open Cert.KernelIdeal Cert.KernelIdeal.Gen Idealize.ShloMosaic

variable {F : FTy → Type} [FloatOps F]

/-- The projection weights `((U @ A) as [128, 32]) @ P`, as 128 lanes. -/
def wOf (U : Vec F S16x8x1 .f32) (A : Vec F S16x1x32 .f32) (P : Vec F S32x1 .f32) : Vec F S128 .f32 :=
  shapeCast S128
    (Host.dotGeneral dot_S128x32_S32x1_S128x1_1_0_0_1_n_n none
      (shapeCast S128x32 (Host.dotGeneral dot_S16x8x1_S16x1x32_S16x8x32_2_1_1_2_0_0 none U A) shapeCasts_S16x8x32_S128x32) P)
    shapeCasts_S128x1_S128

/-- The head after the pooling: join, hidden layer with a logistic, output layer with its bias. -/
def tailOf (p0 p1 : Vec F S64x128 .f32) (Wh : Vec F S256x256 .f32) (Cw : Vec F S128x256 .f32) (Cb : Vec F S128 .f32) :
    Vec F S64x128 .f32 :=
  addf
    (Host.dotGeneral dot_S64x256_S256x128_S64x128_1_0_0_1_n_n none
      (Host.divf (broadcastInDim S64x256 ![] bcast_S_S64x256 (constant (F := F) S_ .f32 0x3F800000#32))
        (addf (broadcastInDim S64x256 ![] bcast_S_S64x256 (constant (F := F) S_ .f32 0x3F800000#32))
          (Host.exp (Host.negf
            (Host.dotGeneral dot_S64x256_S256x256_S64x256_1_0_0_1_n_n none
              (concatenate S64x256 1 [⟨S64x128, p0⟩, ⟨S64x128, p1⟩] concatenates_S64x128_S64x128_S64x256_d1)
              (transpose S256x256 [1, 0] Wh transposes_S256x256_S256x256_1_0))))))
      (transpose S256x128 [1, 0] Cw transposes_S128x256_S256x128_1_0))
    (broadcastInDim S64x128 ![0, 1] bcast_S1x128_S64x128_0_1 (broadcastInDim S1x128 ![1] bcast_S128_S1x128_1 Cb))

end Cert.KernelIdeal.HostFns

end
-- ==== Proof.HostSide.lean ====
/-
  The host side of the kernel's program, read through the segment boundaries. Before region 0 the host computes the
  two vectors of lane weights; neither region nor any host operation writes an argument array, and region 0 writes
  only its own result array, so region 1 still finds its inputs as launched or as the first host stretch left them.
  After region 1 the remaining host operations are the shared head applied to the two regions' result arrays.
-/
import proofs.«174952_j36584531427734_1_alg».proof.Proof.Gen.KernelIdeal.Frame
import proofs.«174952_j36584531427734_1_alg».proof.Proof.HostFns
import Idealize.ShloMosaic.Lib.StableHlo.Run

set_option maxRecDepth 16384

noncomputable section

open Idealize.ShloMosaic Idealize.ShloMosaic.TcCoe Idealize.SL.Sem

namespace Cert.KernelIdeal.HostSide

open Cert.KernelIdeal Cert.KernelIdeal.Gen Cert.KernelIdeal.HostFns

variable {F : FTy → Type} [FloatOps F]
variable (m : (ℓ : Loc nD τ sig) → Buf (Elt F) ℓ) (ρ : Dev nD → PrngReg)

/-- That a buffer is in no operation's write set, over a host stretch written out: each write set is one reference,
    and distinctness of references is decided. -/
local macro "unwritten" : tactic =>
  `(tactic| (refine List.forall_iff_forall_mem.mp ?_
             simp only [hostOps0, hostOps2, List.Forall, StableHlo.nullary_writes, StableHlo.unary_writes,
               StableHlo.binary_writes, StableHlo.reshape_writes, Finset.mem_singleton]
             repeat' apply And.intro
             all_goals exact StableHlo.devRef_ne_of_ne (by decide)))

/-- A buffer that no operation of the first host stretch writes is, at region 0's entry, as launched. -/
theorem W1_unwritten (c : Dev nD) (b : Ref sig .tc)
    (h : ∀ op ∈ (hostOps0 : List (HloOp τ sig (Elt F))), Proc.devRef .tc b ∉ op.writes) :
    W1 m ρ c (Proc.devRef .tc b) = m ((c : Thread nD τ).loc b) :=
  (StableHlo.after_of_forall_not_mem (b := Proc.devRef .tc b) _ _ h).trans rfl

/-- The first projection weights after the first host stretch: the two products and the two re-layings. -/
theorem W1_v3 (c : Dev nD) : W1 m ρ c (Proc.devRef .tc main_v3)
    = wOf (m ((c : Thread nD τ).loc main_arg3)) (m ((c : Thread nD τ).loc main_arg4)) (m ((c : Thread nD τ).loc main_arg2)) := by
  show StableHlo.after hostOps0 _ (Proc.devRef .tc main_v3) = _
  after_results
  unfold wOf
  rfl

/-- The second projection weights after the first host stretch. -/
theorem W1_v7 (c : Dev nD) : W1 m ρ c (Proc.devRef .tc main_v7)
    = wOf (m ((c : Thread nD τ).loc main_arg7)) (m ((c : Thread nD τ).loc main_arg8)) (m ((c : Thread nD τ).loc main_arg6)) := by
  show StableHlo.after hostOps0 _ (Proc.devRef .tc main_v7) = _
  after_results
  unfold wOf
  rfl

/-- Region 0 finds the first set-and-feature array as launched. -/
theorem V1_arg0 (c : Dev nD) : V1 m ρ c main_arg0 = m ((c : Thread nD τ).loc main_arg0) :=
  W1_unwritten m ρ c main_arg0 (by unwritten)

/-- Region 0 finds, as its lane weights, the projection weights of the first branch's parameters. -/
theorem V1_v3 (c : Dev nD) : V1 m ρ c main_v3 = wOf (m ((c : Thread nD τ).loc main_arg3)) (m ((c : Thread nD τ).loc main_arg4)) (m ((c : Thread nD τ).loc main_arg2)) :=
  W1_v3 m ρ c

/-- Region 0 finds the first branch's lane offsets as launched. -/
theorem V1_arg5 (c : Dev nD) : V1 m ρ c main_arg5 = m ((c : Thread nD τ).loc main_arg5) :=
  W1_unwritten m ρ c main_arg5 (by unwritten)

/-- Region 1 finds the second set-and-feature array as launched. -/
theorem V2_arg1 (c : Dev nD) : V2 m ρ c main_arg1 = m ((c : Thread nD τ).loc main_arg1) :=
  (W2_of_ne m ρ c main_arg1 (by decide)).trans (W1_unwritten m ρ c main_arg1 (by unwritten))

/-- Region 1 finds, as its lane weights, the projection weights of the second branch's parameters. -/
theorem V2_v7 (c : Dev nD) : V2 m ρ c main_v7 = wOf (m ((c : Thread nD τ).loc main_arg7)) (m ((c : Thread nD τ).loc main_arg8)) (m ((c : Thread nD τ).loc main_arg6)) :=
  (W2_of_ne m ρ c main_v7 (by decide)).trans (W1_v7 m ρ c)

/-- Region 1 finds the second branch's lane offsets as launched. -/
theorem V2_arg9 (c : Dev nD) : V2 m ρ c main_arg9 = m ((c : Thread nD τ).loc main_arg9) :=
  (W2_of_ne m ρ c main_arg9 (by decide)).trans (W1_unwritten m ρ c main_arg9 (by unwritten))

/-- A buffer that is no array of either region and that the first host stretch does not write is, at region 1's exit,
    as launched. -/
theorem W3_unwritten (c : Dev nD) (b : Ref sig .tc) (h1 : ∀ w, Pipeline.arrRef spec1 w ≠ b) (h0 : ∀ w, Pipeline.arrRef spec0 w ≠ b)
    (h : ∀ op ∈ (hostOps0 : List (HloOp τ sig (Elt F))), Proc.devRef .tc b ∉ op.writes) :
    W3 m ρ c (Proc.devRef .tc b) = m ((c : Thread nD τ).loc b) :=
  (W3_of_ne m ρ c b h1).trans ((W2_of_ne m ρ c b h0).trans (W1_unwritten m ρ c b h))

/-- The last host stretch from any contents: its result buffer holds the shared head of what the two regions' result
    buffers and the three head parameters held. -/
theorem after_tail_v23 (V : Valuation τ sig (Elt F)) :
    StableHlo.after hostOps2 V (Proc.devRef .tc main_v23)
      = tailOf (V (Proc.devRef .tc main_v8)) (V (Proc.devRef .tc main_v9))
          (V (Proc.devRef .tc main_arg10)) (V (Proc.devRef .tc main_arg11)) (V (Proc.devRef .tc main_arg12)) := by
  after_results
  unfold tailOf
  rfl

/-- The shared head at equal arguments. -/
theorem tailOf_congr {p0 p0' p1 p1' : Vec F S64x128 .f32} {Wh Wh' : Vec F S256x256 .f32} {Cw Cw' : Vec F S128x256 .f32}
    {Cb Cb' : Vec F S128 .f32} (h0 : p0 = p0') (h1 : p1 = p1') (hh : Wh = Wh') (hw : Cw = Cw') (hb : Cb = Cb') :
    tailOf p0 p1 Wh Cw Cb = tailOf p0' p1' Wh' Cw' Cb' := by
  subst h0 h1 hh hw hb; rfl

/-- The program's result at the last boundary: the shared head of the two regions' result arrays. -/
theorem W4_v23 (c : Dev nD) :
    W4 m ρ c (Proc.devRef .tc main_v23)
      = tailOf ((dat0 (V1 m ρ) c).arrAt 3 cfg0.N) ((dat1 (V2 m ρ) c).arrAt 3 cfg1.N)
          (m ((c : Thread nD τ).loc main_arg10)) (m ((c : Thread nD τ).loc main_arg11)) (m ((c : Thread nD τ).loc main_arg12)) :=
  (after_tail_v23 (W3 m ρ c)).trans (tailOf_congr
    ((W3_of_ne m ρ c main_v8 (by decide)).trans (W2_arr m ρ c 3))
    (W3_arr m ρ c 3)
    (W3_unwritten m ρ c main_arg10 (by decide) (by decide) (by unwritten))
    (W3_unwritten m ρ c main_arg11 (by decide) (by decide) (by unwritten))
    (W3_unwritten m ρ c main_arg12 (by decide) (by decide) (by unwritten)))

end Cert.KernelIdeal.HostSide

end
-- ==== Proof.RefSide.lean ====
/-
  The reference, read as a value at the extended reals. Its program computes each branch's lane weights, forms the
  four-axis array of gates `1 / (1 + e^(−(x[r, n, d] · w[q] + v[q])))`, takes the maximum over the feature axis from
  `−∞` and the sum over the set axis from zero, joins the two pooled arrays and applies the head. Index by index that
  is the specification's pooled value: `1 / (1 + e^(−t))` is the logistic of `t` at every extended real, the
  maximum from `−∞` is the fold of `max` from `⊥`, and the host's sum is the zero word plus the sum over the axis.
  The lane weights and the head are the same operations as in the kernel's program and are carried as the same two
  functions.
-/
import proofs.«174952_j36584531427734_1_alg».proof.Proof.RefRead
import proofs.«174952_j36584531427734_1_alg».proof.Proof.HostFns
import proofs.«174952_j36584531427734_1_alg».proof.Proof.PoolSpec
import Idealize.ShloMosaic.Lib.IdealHost
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open scoped BigOperators

namespace Cert.ReferenceIdeal.RefSide

open Cert.ReferenceIdeal Cert.ReferenceIdeal.Gen Cert.PoolSpec
open Cert.KernelIdeal.HostFns (wOf tailOf)

section Shared

variable {F : FTy → Type} [FloatOps F]

/-- The four-axis array of gates: one over one plus the exponential of minus (x times w plus v), every operand
    broadcast to [64, 1024, 16, 128]. -/
def gates (x : Vec F S64x1024x16 .f32) (w v : Vec F S128 .f32) : Vec F S64x1024x16x128 .f32 :=
  Host.divf (broadcastInDim S64x1024x16x128 ![] bcast_S_S64x1024x16x128 (constant S_ .f32 0x3F800000#32)) (addf (broadcastInDim S64x1024x16x128 ![] bcast_S_S64x1024x16x128 (constant S_ .f32 0x3F800000#32)) (Host.exp (Host.negf (addf (mulf (broadcastInDim S64x1024x16x128 ![0, 1, 2, 3] bcast_S64x1024x16x1_S64x1024x16x128_0_1_2_3 (broadcastInDim S64x1024x16x1 ![0, 1, 2] bcast_S64x1024x16_S64x1024x16x1_0_1_2 x)) (broadcastInDim S64x1024x16x128 ![0, 1, 2, 3] bcast_S1x1x1x128_S64x1024x16x128_0_1_2_3 (broadcastInDim S1x1x1x128 ![3] bcast_S128_S1x1x1x128_3 w))) (broadcastInDim S64x1024x16x128 ![0, 1, 2, 3] bcast_S1x1x1x128_S64x1024x16x128_0_1_2_3 (broadcastInDim S1x1x1x128 ![3] bcast_S128_S1x1x1x128_3 v))))))

/-- One branch's pooled array as the reference computes it: the maximum over the feature axis from minus infinity,
    then the sum over the set axis from zero. -/
def branchOf (x : Vec F S64x1024x16 .f32) (w v : Vec F S128 .f32) : Vec F S64x128 .f32 :=
  Host.reduceAdd (Host.reduce FloatOps.maximumf (gates x w v) (constant S_ .f32 0xFF800000#32) reducesTo_S64x1024x16x128_S64x1024x128_d2 h_S_) (constant S_ .f32 0x00000000#32) reducesTo_S64x1024x128_S64x128_d1 h_S_

/-- The reference's composed term is the head applied to the two branches' pooled arrays, each taken at its branch's
    lane weights: the same operations in the same order, at any float family. -/
theorem composed_eq (x0 x1 : Vec F S64x1024x16 .f32) (P0 P1 : Vec F S32x1 .f32) (U0 U1 : Vec F S16x8x1 .f32)
    (A0 A1 : Vec F S16x1x32 .f32) (V0 V1 : Vec F S128 .f32) (Wh : Vec F S256x256 .f32) (Cw : Vec F S128x256 .f32)
    (Cb : Vec F S128 .f32) :
    addf (Host.dotGeneral dot_S64x256_S256x128_S64x128_1_0_0_1_n_n none (Host.divf (broadcastInDim S64x256 ![] bcast_S_S64x256 (constant S_ .f32 0x3F800000#32)) (addf (broadcastInDim S64x256 ![] bcast_S_S64x256 (constant S_ .f32 0x3F800000#32)) (Host.exp (Host.negf (Host.dotGeneral dot_S64x256_S256x256_S64x256_1_0_0_1_n_n none (concatenate S64x256 1 [⟨S64x128, (Host.reduceAdd (Host.reduce FloatOps.maximumf (Host.divf (broadcastInDim S64x1024x16x128 ![] bcast_S_S64x1024x16x128 (constant S_ .f32 0x3F800000#32)) (addf (broadcastInDim S64x1024x16x128 ![] bcast_S_S64x1024x16x128 (constant S_ .f32 0x3F800000#32)) (Host.exp (Host.negf (addf (mulf (broadcastInDim S64x1024x16x128 ![0, 1, 2, 3] bcast_S64x1024x16x1_S64x1024x16x128_0_1_2_3 (broadcastInDim S64x1024x16x1 ![0, 1, 2] bcast_S64x1024x16_S64x1024x16x1_0_1_2 x0)) (broadcastInDim S64x1024x16x128 ![0, 1, 2, 3] bcast_S1x1x1x128_S64x1024x16x128_0_1_2_3 (broadcastInDim S1x1x1x128 ![3] bcast_S128_S1x1x1x128_3 (shapeCast _ (Host.dotGeneral dot_S128x32_S32x1_S128x1_1_0_0_1_n_n none (shapeCast _ (Host.dotGeneral dot_S16x8x1_S16x1x32_S16x8x32_2_1_1_2_0_0 none U0 A0) shapeCasts_S16x8x32_S128x32) P0) shapeCasts_S128x1_S128)))) (broadcastInDim S64x1024x16x128 ![0, 1, 2, 3] bcast_S1x1x1x128_S64x1024x16x128_0_1_2_3 (broadcastInDim S1x1x1x128 ![3] bcast_S128_S1x1x1x128_3 V0))))))) (constant S_ .f32 0xFF800000#32) reducesTo_S64x1024x16x128_S64x1024x128_d2 h_S_) (constant S_ .f32 0x00000000#32) reducesTo_S64x1024x128_S64x128_d1 h_S_)⟩, ⟨S64x128, (Host.reduceAdd (Host.reduce FloatOps.maximumf (Host.divf (broadcastInDim S64x1024x16x128 ![] bcast_S_S64x1024x16x128 (constant S_ .f32 0x3F800000#32)) (addf (broadcastInDim S64x1024x16x128 ![] bcast_S_S64x1024x16x128 (constant S_ .f32 0x3F800000#32)) (Host.exp (Host.negf (addf (mulf (broadcastInDim S64x1024x16x128 ![0, 1, 2, 3] bcast_S64x1024x16x1_S64x1024x16x128_0_1_2_3 (broadcastInDim S64x1024x16x1 ![0, 1, 2] bcast_S64x1024x16_S64x1024x16x1_0_1_2 x1)) (broadcastInDim S64x1024x16x128 ![0, 1, 2, 3] bcast_S1x1x1x128_S64x1024x16x128_0_1_2_3 (broadcastInDim S1x1x1x128 ![3] bcast_S128_S1x1x1x128_3 (shapeCast _ (Host.dotGeneral dot_S128x32_S32x1_S128x1_1_0_0_1_n_n none (shapeCast _ (Host.dotGeneral dot_S16x8x1_S16x1x32_S16x8x32_2_1_1_2_0_0 none U1 A1) shapeCasts_S16x8x32_S128x32) P1) shapeCasts_S128x1_S128)))) (broadcastInDim S64x1024x16x128 ![0, 1, 2, 3] bcast_S1x1x1x128_S64x1024x16x128_0_1_2_3 (broadcastInDim S1x1x1x128 ![3] bcast_S128_S1x1x1x128_3 V1))))))) (constant S_ .f32 0xFF800000#32) reducesTo_S64x1024x16x128_S64x1024x128_d2 h_S_) (constant S_ .f32 0x00000000#32) reducesTo_S64x1024x128_S64x128_d1 h_S_)⟩] concatenates_S64x128_S64x128_S64x256_d1) (transpose S256x256 [1, 0] Wh transposes_S256x256_S256x256_1_0)))))) (transpose S256x128 [1, 0] Cw transposes_S128x256_S256x128_1_0)) (broadcastInDim S64x128 ![0, 1] bcast_S1x128_S64x128_0_1 (broadcastInDim S1x128 ![1] bcast_S128_S1x128_1 Cb))
      = tailOf (branchOf x0 (wOf U0 A0 P0) V0) (branchOf x1 (wOf U1 A1 P1) V1) Wh Cw Cb := rfl

end Shared

section AtIdeal

/-- The bit pattern of minus infinity denotes the least extended real. -/
theorem negInf_eq : Ideal.ofBits .f32 0xFF800000#32 = ⊥ := by simp [Ideal.ofBits, Ideal.ieee]

/-- The host's exponential and negation read at an index. -/
theorem hostExp_apply {s : Shape} {φ : FTy} (a : FVec Ideal s φ) (i : s.Idx) : Host.exp a i = Ideal.exp (a i) := rfl
theorem hostNegf_apply {s : Shape} {φ : FTy} (a : FVec Ideal s φ) (i : s.Idx) : Host.negf a i = -(a i) := rfl

/-- The shape facts of the two reductions in the form that names the inserted index. -/
theorem reduces_d2 : S64x1024x16x128.Reduces [2] S64x1024x128 := by decide
theorem reduces_d1 : S64x1024x128.Reduces [1] S64x128 := by decide

/-- The set-and-feature array broadcast to four axes reads, at (r, n, d, q), the array at (r, n, d). -/
theorem bcastX_apply (x : Vec Ideal S64x1024x16 .f32) (r : Fin 64) (n : Fin 1024) (d : Fin 16) (q : Fin 128) :
    broadcastInDim S64x1024x16x128 ![0, 1, 2, 3] bcast_S64x1024x16x1_S64x1024x16x128_0_1_2_3 (broadcastInDim S64x1024x16x1 ![0, 1, 2] bcast_S64x1024x16_S64x1024x16x1_0_1_2 x) (ix4 r n d q) = x (ix3 r n d) := by
  show ReadP.val_main_v6 (F := Ideal) x (ix4 r n d q) = _
  rw [ReadP.val_main_v6_apply, ReadP.val_main_v4_apply]
  exact congrArg x (funext fun a => Fin.ext (by match a with | ⟨0, _⟩ => rfl | ⟨1, _⟩ => rfl | ⟨2, _⟩ => rfl))

/-- A lane vector broadcast to four axes reads, at (r, n, d, q), the vector at q. -/
theorem bcastLane_apply (u : Vec Ideal S128 .f32) (r : Fin 64) (n : Fin 1024) (d : Fin 16) (q : Fin 128) :
    broadcastInDim S64x1024x16x128 ![0, 1, 2, 3] bcast_S1x1x1x128_S64x1024x16x128_0_1_2_3 (broadcastInDim S1x1x1x128 ![3] bcast_S128_S1x1x1x128_3 u) (ix4 r n d q) = u (ix1 q) := by
  show ReadP.val_main_v10 (F := Ideal) u (ix4 r n d q) = _
  rw [ReadP.val_main_v10_apply, ReadP.val_main_v9_apply]
  exact congrArg u (funext fun a => Fin.ext (by match a with | ⟨0, _⟩ => rfl))

/-- The constant one broadcast to four axes reads one everywhere. -/
theorem bcastOne_apply (j : S64x1024x16x128.Idx) :
    broadcastInDim S64x1024x16x128 ![] bcast_S_S64x1024x16x128 (constant (F := Ideal) S_ .f32 0x3F800000#32) j = 1 := by
  rw [broadcastInDim_scalar_apply, constant_apply, Ideal.ofBits_one_f32]

/-- The gate array at (r, n, d, q) is the gate of x[r, n, d], w[q], v[q]: one over one plus the exponential of the
    negated argument is the logistic of the argument, by definition, at every extended real. -/
theorem gates_apply (x : Vec Ideal S64x1024x16 .f32) (w v : Vec Ideal S128 .f32) (r : Fin 64) (n : Fin 1024) (d : Fin 16)
    (q : Fin 128) : gates (F := Ideal) x w v (ix4 r n d q) = gate (x (ix3 r n d)) (w (ix1 q)) (v (ix1 q)) := by
  unfold gates gate Ideal.logistic
  rw [hostDivf_apply, addf_apply, hostExp_apply, hostNegf_apply, addf_apply, mulf_apply, bcastOne_apply, bcastX_apply,
    bcastLane_apply w, bcastLane_apply v]

/-- The maximum over the feature axis from minus infinity, at (r, n, q), is the largest of the sixteen entries
    (r, n, ·, q): a fold of `max` from the least element over the axis's coordinates. -/
theorem maxReduce_apply (g : Vec Ideal S64x1024x16x128 .f32) (r : Fin 64) (n : Fin 1024) (q : Fin 128) :
    Host.reduce FloatOps.maximumf g (constant (F := Ideal) S_ .f32 0xFF800000#32) reducesTo_S64x1024x16x128_S64x1024x128_d2 h_S_ (ix3 r n q)
      = top16 (fun d => g (ix4 r n d q)) := by
  rw [Host.reduce_eq_fold_single (α := Ideal .f32) FloatOps.maximumf g (constant (F := Ideal) S_ .f32 0xFF800000#32)
    reducesTo_S64x1024x16x128_S64x1024x128_d2 reduces_d2 h_S_ (ix3 r n q)]
  unfold top16
  show (Finset.univ : Finset (Fin 16)).fold max (Ideal.ofBits .f32 0xFF800000#32) (fun d => g (reduces_d2.lift (ix3 r n q) d)) = _
  rw [negInf_eq]
  refine congrArg (fun f => (Finset.univ : Finset (Fin 16)).fold max ⊥ f) (funext fun d => ?_)
  exact congrArg g (funext fun a => Fin.ext (by match a with | ⟨0, _⟩ => rfl | ⟨1, _⟩ => rfl | ⟨2, _⟩ => rfl | ⟨3, _⟩ => rfl))

/-- The sum over the set axis from zero, at (r, q), is the zero word plus the sum of the entries (r, ·, q). -/
theorem sumReduce_apply (y : Vec Ideal S64x1024x128 .f32) (r : Fin 64) (q : Fin 128) :
    Host.reduceAdd (F := Ideal) y (constant (F := Ideal) S_ .f32 0x00000000#32) reducesTo_S64x1024x128_S64x128_d1 h_S_ (ix2 r q)
      = Ideal.ofBits .f32 0x00000000#32 + ∑ n : Fin 1024, y (ix3 r n q) := by
  rw [hostReduceAdd_apply, Ideal.hostReduceAdd_single reducesTo_S64x1024x128_S64x128_d1 reduces_d1]
  refine congrArg (_ + ·) (Finset.sum_congr rfl fun k _ => ?_)
  exact congrArg y (funext fun a => Fin.ext (by match a with | ⟨0, _⟩ => rfl | ⟨1, _⟩ => rfl | ⟨2, _⟩ => rfl))

/-- One branch's pooled array, as the reference computes it, is the specification's pooled array. -/
theorem branch_eq (x : Vec Ideal S64x1024x16 .f32) (w v : Vec Ideal S128 .f32) :
    branchOf (F := Ideal) x w v = pool x w v := by
  funext j
  obtain ⟨r, q, rfl⟩ : ∃ (r : Fin 64) (q : Fin 128), j = ix2 r q := ⟨j 0, j 1, eq_ix2 j⟩
  unfold branchOf
  rw [sumReduce_apply]
  show _ = poolAt x w v r q
  unfold poolAt
  refine congrArg (_ + ·) (Finset.sum_congr rfl fun n _ => ?_)
  rw [maxReduce_apply]
  unfold peak cell
  exact congrArg top16 (funext fun d => gates_apply x w v r n d q)

/-- The head of the reference's two pooled arrays is the head of the specification's. -/
theorem value_eq (x0 x1 : Vec Ideal S64x1024x16 .f32) (P0 P1 : Vec Ideal S32x1 .f32) (U0 U1 : Vec Ideal S16x8x1 .f32)
    (A0 A1 : Vec Ideal S16x1x32 .f32) (V0 V1 : Vec Ideal S128 .f32) (Wh : Vec Ideal S256x256 .f32)
    (Cw : Vec Ideal S128x256 .f32) (Cb : Vec Ideal S128 .f32) :
    tailOf (F := Ideal) (branchOf x0 (wOf U0 A0 P0) V0) (branchOf x1 (wOf U1 A1 P1) V1) Wh Cw Cb
      = tailOf (F := Ideal) (pool x0 (wOf U0 A0 P0) V0) (pool x1 (wOf U1 A1 P1) V1) Wh Cw Cb := by
  rw [branch_eq, branch_eq]

end AtIdeal

/-- Every weakly fair execution of the reference terminates with its result at the head of the two pooled arrays —
    each the pooled value of its branch's set-and-feature array, projection weights and lane offsets — and its
    arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53)
        = tailOf (F := Ideal)
            (pool (m ((c.tc : Thread nD τ).loc main_arg0)) (wOf (F := Ideal) (m ((c.tc : Thread nD τ).loc main_arg3)) (m ((c.tc : Thread nD τ).loc main_arg4)) (m ((c.tc : Thread nD τ).loc main_arg2))) (m ((c.tc : Thread nD τ).loc main_arg5)))
            (pool (m ((c.tc : Thread nD τ).loc main_arg1)) (wOf (F := Ideal) (m ((c.tc : Thread nD τ).loc main_arg7)) (m ((c.tc : Thread nD τ).loc main_arg8)) (m ((c.tc : Thread nD τ).loc main_arg6))) (m ((c.tc : Thread nD τ).loc main_arg9)))
            (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    ⟨(h c).1.trans
      ((composed_eq (F := Ideal) (m ((c.tc : Thread nD τ).loc main_arg0)) (m ((c.tc : Thread nD τ).loc main_arg1))
          (m ((c.tc : Thread nD τ).loc main_arg2)) (m ((c.tc : Thread nD τ).loc main_arg6))
          (m ((c.tc : Thread nD τ).loc main_arg3)) (m ((c.tc : Thread nD τ).loc main_arg7))
          (m ((c.tc : Thread nD τ).loc main_arg4)) (m ((c.tc : Thread nD τ).loc main_arg8))
          (m ((c.tc : Thread nD τ).loc main_arg5)) (m ((c.tc : Thread nD τ).loc main_arg9))
          (m ((c.tc : Thread nD τ).loc main_arg10)) (m ((c.tc : Thread nD τ).loc main_arg11)) (m ((c.tc : Thread nD τ).loc main_arg12))).trans
        (value_eq _ _ _ _ _ _ _ _ _ _ _ _ _)),
     (h c).2⟩)
    (RunP.run (F := Ideal) m ρ)

end Cert.ReferenceIdeal.RefSide

end
-- ==== Proof.Claims.lean ====
/-
  The five claims. The three frames are the generated ones (the reference's is its generated run with the result
  dropped); the ideal pass rewrote nothing, so `preserves` is `True`. For `algebraic`: the idealized kernel's
  result ends at the last segment boundary's contents, which the host-side reads and the two regions' result arrays
  turn into the shared head applied to the two pooled arrays — each the specification's pooled value of its branch's
  set-and-feature array, projection weights and lane offsets; the reference's run ends at the same term of its own
  arguments; and the arguments agree.
-/
import proofs.«174952_j36584531427734_1_alg».proof.Defs
import proofs.«174952_j36584531427734_1_alg».proof.Proof.Gen.Kernel.Frame
import proofs.«174952_j36584531427734_1_alg».proof.Proof.Gen.KernelIdeal.Frame
import proofs.«174952_j36584531427734_1_alg».proof.Proof.Gen.ReferenceIdeal
import proofs.«174952_j36584531427734_1_alg».proof.Proof.Gen.Pre_finite_inputs
import proofs.«174952_j36584531427734_1_alg».proof.Proof.KernelRun
import proofs.«174952_j36584531427734_1_alg».proof.Proof.Region0
import proofs.«174952_j36584531427734_1_alg».proof.Proof.Region1
import proofs.«174952_j36584531427734_1_alg».proof.Proof.HostSide
import proofs.«174952_j36584531427734_1_alg».proof.Proof.RefSide

set_option maxRecDepth 16384

noncomputable section

namespace Cert.Proof.Claims

open Idealize.ShloMosaic Idealize.ShloMosaic.TcCoe Idealize.SL.Sem
open Cert.PoolSpec Cert.KernelIdeal.HostFns

theorem frame_k : Cert.frame_Kernel := fun m ρ _ => Cert.Kernel.Gen.frame m ρ

theorem frame_ki : Cert.frame_KernelIdeal := fun m ρ _ => Cert.KernelIdeal.Gen.frame m ρ

/-- The reference's run terminates with its arguments unchanged: its valued run with the result dropped. -/
theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- The idealized kernel's run, valued: its result ends at the shared head of the two pooled arrays. -/
theorem kernel_value (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v23)
        = tailOf (F := Ideal)
            (pool (m ((c.tc : Thread Cert.KernelIdeal.nD Cert.KernelIdeal.τ).loc Cert.KernelIdeal.main_arg0)) (wOf (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg2))) (m ((c.tc : Thread Cert.KernelIdeal.nD Cert.KernelIdeal.τ).loc Cert.KernelIdeal.main_arg5)))
            (pool (m ((c.tc : Thread Cert.KernelIdeal.nD Cert.KernelIdeal.τ).loc Cert.KernelIdeal.main_arg1)) (wOf (F := Ideal) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg6))) (m ((c.tc : Thread Cert.KernelIdeal.nD Cert.KernelIdeal.τ).loc Cert.KernelIdeal.main_arg9)))
            (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12) :=
  (θ_run Cert.KernelIdeal.defs _ _).mono (fun _ h c => ⟨(h c).1.trans (by
      rw [Cert.KernelIdeal.HostSide.W4_v23, Cert.KernelIdeal.Region0.final0, Cert.KernelIdeal.Region1.final1, Cert.KernelIdeal.HostSide.V1_arg0, Cert.KernelIdeal.HostSide.V1_v3,
        Cert.KernelIdeal.HostSide.V1_arg5, Cert.KernelIdeal.HostSide.V2_arg1, Cert.KernelIdeal.HostSide.V2_v7, Cert.KernelIdeal.HostSide.V2_arg9]), (h c).2⟩)
    (Cert.KernelIdeal.RunNamed.run_named (F := Ideal) m ρ)

/-- From memories that agree on the arguments, the two idealized programs end with equal results. -/
theorem algebraic : Cert.algebraic_KernelIdeal_ReferenceIdeal := by
  intro m ρ m' ρ' _ hagree
  refine ⟨_, kernel_value m ρ, ?_⟩
  refine (θ_run Cert.ReferenceIdeal.defs _ _).mono (fun _ h c => ⟨(h c).1.trans ?_, (h c).2⟩) (Cert.ReferenceIdeal.RefSide.run_value m' ρ')
  obtain ⟨e0, e1, e2, e3, e4, e5, e6, e7, e8, e9, e10, e11, e12⟩ := hagree c
  rw [e0, e1, e2, e3, e4, e5, e6, e7, e8, e9, e10, e11, e12]

end Cert.Proof.Claims

end
-- ==== Proof.lean ====
/-
  Two Pallas calls pool two set-and-feature arrays: for each batch row and lane, the sum over the set axis of the
  largest, over the feature axis, of the logistic gates `logistic (x · w + v)`; the host computes the lane weights
  before them and a two-layer head after them. The reference computes the same with whole-array jnp operations.
  Over the extended reals the two agree with no hypothesis on the inputs: the kernel's `logistic` is by definition
  the reference's `1 / (1 + e^(−t))`; a pairwise maximum from the first gate is the maximum folded from `−∞`; and a
  sum taken in four tiles into a zeroed block is the whole sum, addition being commutative and associative.
  `Cert.Proof.Claims` states the five claims; this file only collects them.
-/
import proofs.«174952_j36584531427734_1_alg».proof.Defs
import proofs.«174952_j36584531427734_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
